-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S1024x1024 .f32) (main_v63 : IVec S_ 1) (main_v67 : IVec S_ 1) : IVec S_ 1 :=
  let main_v68 : IVec S_ 1 := andi main_v63 main_v67
  let main_v69 : FVec F S1024x1024 .f32 := Host.absf main_arg14
  let main_cst_26 : FVec F S_ .f32 := constant S_ .f32 0x7F800000#32
  let main_v70 : FVec F S1024x1024 .f32 := broadcastInDim S1024x1024 ![] bcast_S_S1024x1024 main_cst_26
  let main_v71 : IVec S1024x1024 1 := cmpf .olt main_v69 main_v70
  let main_c_27 : IVec S_ 1 := constantI S_ 1 1#1
  let main_v72 : IVec S_ 1 := (fun x v => Host.reduce IntOp.andi x v reducesTo_S1024x1024_S_d0_1 h_S_) main_v71 main_c_27
  let main_v73 : IVec S_ 1 := andi main_v68 main_v72
  main_v73

def fn_part3 {F : FTy → Type} [FloatOps F] (main_arg11 : FVec F S1024x1024 .f32) (main_arg12 : FVec F S1024x1024 .f32) (main_arg13 : FVec F S1024 .f32) (main_arg14 : FVec F S1024x1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_v63 main_v67

def fn_part2 {F : FTy → Type} [FloatOps F] (main_arg7 : FVec F S1024 .f32) (main_arg8 : FVec F S1024x1024 .f32) (main_arg9 : FVec F S1024x1024 .f32) (main_arg10 : FVec F S1024 .f32) (main_arg11 : FVec F S1024x1024 .f32) (main_arg12 : FVec F S1024x1024 .f32) (main_arg13 : FVec F S1024 .f32) (main_arg14 : FVec F S1024x1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_v48 main_v49 main_v50

def fn_part1 {F : FTy → Type} [FloatOps F] (main_arg4 : FVec F S1024 .f32) (main_arg5 : FVec F S1024x1024 .f32) (main_arg6 : FVec F S1024x1024 .f32) (main_arg7 : FVec F S1024 .f32) (main_arg8 : FVec F S1024x1024 .f32) (main_arg9 : FVec F S1024x1024 .f32) (main_arg10 : FVec F S1024 .f32) (main_arg11 : FVec F S1024x1024 .f32) (main_arg12 : FVec F S1024x1024 .f32) (main_arg13 : FVec F S1024 .f32) (main_arg14 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S8192x1024 .f32) (main_arg1 : FVec F S8192x1024 .f32) (main_arg2 : FVec F S8192x1024 .f32) (main_arg3 : FVec F S1024x1024 .f32) (main_arg4 : FVec F S1024 .f32) (main_arg5 : FVec F S1024x1024 .f32) (main_arg6 : FVec F S1024x1024 .f32) (main_arg7 : FVec F S1024 .f32) (main_arg8 : FVec F S1024x1024 .f32) (main_arg9 : FVec F S1024x1024 .f32) (main_arg10 : FVec F S1024 .f32) (main_arg11 : FVec F S1024x1024 .f32) (main_arg12 : FVec F S1024x1024 .f32) (main_arg13 : FVec F S1024 .f32) (main_arg14 : FVec F S1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S1x4096 : Shape := ⟨2, ![1, 4096]⟩
abbrev S128x1024 : Shape := ⟨2, ![128, 1024]⟩
abbrev S128x4096 : Shape := ⟨2, ![128, 4096]⟩

abbrev nBuf : Space → Nat
  | .hbm => 31
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024x1024, .f32⟩
  | .hbm, ⟨13, _⟩ => ⟨S1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S1024x4096, .f32⟩
  | .hbm, ⟨20, _⟩ => ⟨S1024x4096, .bf16⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S1024x4096, .f32⟩
  | .hbm, ⟨26, _⟩ => ⟨S1024x4096, .bf16⟩
  | .hbm, ⟨27, _⟩ => ⟨S4096, .f32⟩
  | .hbm, ⟨28, _⟩ => ⟨S1x4096, .f32⟩
  | .hbm, ⟨29, _⟩ => ⟨S8192x1024, .f32⟩
  | .hbm, ⟨30, _⟩ => ⟨S8192x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14_0 : Ref sig .tc := ⟨.hbm, 29, rfl⟩
abbrev main_v14_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S1024x1024_S1024x1024_1_0 : S1024x1024.Transposes [1, 0] S1024x1024
  concatenates_S1024x1024_S1024x1024_S1024x1024_S1024x1024_S1024x4096_d1 : Shape.Concatenates [S1024x1024, S1024x1024, S1024x1024, S1024x1024] S1024x4096 1
  bitsLt_bf16_f32 : FTy.bits .bf16 < FTy.bits .f32
  concatenates_S1024_S1024_S1024_S1024_S4096_d0 : Shape.Concatenates [S1024, S1024, S1024, S1024] S4096 0
  shapeCasts_S4096_S1x4096 : S4096.ShapeCasts S1x4096
  inb_S128x1024_S128x1024_0_0 : ∀ a, (![0, 0] : Fin 2 → Nat) a + S128x1024.size a ≤ S128x1024.size a
  h_S128x1024 : 0 < S128x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  dot_S128x1024_S1024x4096_S128x4096_1_0_0_1_n_n_wf : DotDims.WF S128x1024 S1024x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S8192x1024.size a
  hwx0_0 : ∀ i : grid0.Coords, EltTy.bits .f32 = 32 ∨ (Rect.block (s := S8192x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S8192x1024.size a
  hwx0_1 : ∀ i : grid0.Coords, EltTy.bits .f32 = 32 ∨ (Rect.block (s := S8192x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S8192x1024.size a
  hwx0_2 : ∀ i : grid0.Coords, EltTy.bits .f32 = 32 ∨ (Rect.block (s := S8192x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1024.size a ≤ S8192x1024.size a
  hwx0_6 : ∀ i : grid0.Coords, EltTy.bits .f32 = 32 ∨ (Rect.block (s := S8192x1024) S128x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x1024.size a ≤ S8192x1024.size a
  hwx0_7 : ∀ i : grid0.Coords, EltTy.bits .f32 = 32 ∨ (Rect.block (s := S8192x1024) S128x1024.size (cc0_transform_7 i) (hinb0_7 i)).WholeWords (EltTy.packing .f32)

variable [Facts₀]

def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14_0) S128x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v14_1) S128x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S4096x1024 : Shape := ⟨2, ![4096, 1024]⟩
abbrev S4096 : Shape := ⟨1, ![4096]⟩
abbrev S1024x4096 : Shape := ⟨2, ![1024, 4096]⟩
abbrev S8192x4096 : Shape := ⟨2, ![8192, 4096]⟩
abbrev S1x4096 : Shape := ⟨2, ![1, 4096]⟩
abbrev S_ : Shape := ⟨0, ![]⟩

abbrev nBuf : Space → Nat
  | .hbm => 60
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024x1024, .f32⟩
  | .hbm, ⟨13, _⟩ => ⟨S1024, .f32⟩
  | .hbm, ⟨14, _⟩ => ⟨S1024x1024, .f32⟩
  | .hbm, ⟨15, _⟩ => ⟨S4096x1024, .f32⟩
  | .hbm, ⟨16, _⟩ => ⟨S4096x1024, .f32⟩
  | .hbm, ⟨17, _⟩ => ⟨S4096, .f32⟩
  | .hbm, ⟨18, _⟩ => ⟨S1024x4096, .f32⟩
  | .hbm, ⟨19, _⟩ => ⟨S8192x4096, .f32⟩
  | .hbm, ⟨20, _⟩ => ⟨S1024x4096, .f32⟩
  | .hbm, ⟨21, _⟩ => ⟨S8192x4096, .f32⟩
  | .hbm, ⟨22, _⟩ => ⟨S8192x4096, .f32⟩
  | .hbm, ⟨23, _⟩ => ⟨S1x4096, .f32⟩
  | .hbm, ⟨24, _⟩ => ⟨S8192x4096, .f32⟩
  | .hbm, ⟨25, _⟩ => ⟨S8192x4096, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_v18 : Ref sig .tc := ⟨.hbm, 34, rfl⟩
abbrev main_cst_0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_1 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_3 : Ref sig .tc := ⟨.hbm, 49, rfl⟩
abbrev main_v30 : Ref sig .tc := ⟨.hbm, 50, rfl⟩
abbrev main_v31 : Ref sig .tc := ⟨.hbm, 51, rfl⟩
abbrev main_cst_4 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]

class Facts₀ : Prop where
  concatenates_S1024x1024_S1024x1024_S1024x1024_S1024x1024_S4096x1024_d0 : Shape.Concatenates [S1024x1024, S1024x1024, S1024x1024, S1024x1024] S4096x1024 0
  concatenates_S1024_S1024_S1024_S1024_S4096_d0 : Shape.Concatenates [S1024, S1024, S1024, S1024] S4096 0
  transposes_S4096x1024_S1024x4096_1_0 : S4096x1024.Transposes [1, 0] S1024x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  dot_S8192x1024_S1024x4096_S8192x4096_1_0_0_1_n_n_wf : DotDims.WF S8192x1024 S1024x4096 S8192x4096 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf

class Facts : Prop extends Facts₀ where

variable [Facts]
-- ==== Proof.KernelFrame.lean ====
/-
  The fused LSTM cell's program runs to its end, faults nowhere, and leaves its fifteen argument arrays as launched;
  and after the run each result array is, block by block, what the cell's body made of the arrays' blocks.

  @main is fourteen host lines and one pallas_call. The host lines build the two fused weight matrices [1024, 4096]
  (four transposed gate matrices side by side, narrowed to bf16) and the fused bias row [1, 4096]; none of them writes an
  argument, so the call finds every argument as launched. The call walks 64 row tiles of 128 rows. At a tile the body
  loads the tile's rows of x, h and c, the two resident weight matrices and the bias row, and overwrites the tile's
  rows of both results whole: the new hidden state and the new cell state. It keeps nothing from tile to tile, and what it
  reads of a result's buffer before storing it is never used. So the contents of a result's buffer after a tile are a
  closed function of the six input blocks there, whatever the buffer held before.
-/
import proofs.«143105_j29850022707330_1_alg».proof.Proof.Gen.Kernel.Launch
import proofs.«143105_j29850022707330_1_alg».proof.Proof.Gen.Kernel.Skeleton
import proofs.«143105_j29850022707330_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the call -/

/-- Core `c`'s buffers when the call is entered: the launch contents run through the fourteen host lines. -/
abbrev V (c : Dev nD) (b : Ref sig .tc) : Buf (Elt F) ((c : Thread nD τ).loc b) := StableHlo.after hostOps0 (fun b => m (c, b)) b

/-- No host line allocates. -/
theorem hostOps0_fresh : (hostOps0 : List (HloOp τ sig (Elt F))).Forall fun op => op.fresh = ∅ := by
  simp only [List.Forall]; repeat' constructor

/-- @main is the host lines, then the call: the call is entered with the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Every buffer a host line writes: the fourteen intermediate values, no argument among them. -/
abbrev hostWritten : List (Ref sig .tc) :=
  [main_v0, main_v1, main_v2, main_v3, main_v4, main_v5, main_v6, main_v7, main_v8, main_v9, main_v10, main_v11, main_v12, main_v13]

theorem hostOps0_writes : (hostOps0 : List (HloOp τ sig (Elt F))).Forall fun op =>
    op.writes ⊆ (hostWritten.map (Proc.devRef (τ := τ) .tc)).toFinset := by
  simp only [hostOps0, List.Forall, StableHlo.unary_writes, StableHlo.nary_writes, StableHlo.reshape_writes, Finset.singleton_subset_iff]
  repeat' apply And.intro
  all_goals exact List.mem_toFinset.mpr (List.mem_map_of_mem (by decide))

/-- A buffer no host line writes is found by the call as launched: every argument is such a buffer. -/
theorem V_of_not_written (c : Dev nD) (r : Ref sig .tc) (hr : r ∉ hostWritten) : V m c r = m ((c : Thread nD τ).loc r) :=
  StableHlo.after_of_writes_sub hostOps0 _ hostOps0_writes hr

/-! ## The windows' blocks -/

/-- Window `w`'s block at tile `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds the window's block at every tile, fetched there or not (a resident window is fetched
    once and its block index never moves), for any proof data over the entry contents whose body leaves input blocks in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the two result buffers -/

/-- The whole of a row tile, of a weight matrix, of the bias row: every access of the body is one of these. -/
abbrev rTile : Rect S128x1024 := Rect.unit (s := S128x1024) ![0, 0] S128x1024.size inb_S128x1024_S128x1024_0_0
abbrev rWeight : Rect S1024x4096 := Rect.unit (s := S1024x4096) ![0, 0] S1024x4096.size inb_S1024x4096_S1024x4096_0_0
abbrev rBias : Rect S1x4096 := Rect.unit (s := S1x4096) ![0, 0] S1x4096.size inb_S1x4096_S1x4096_0_0

/-- The new hidden state of a tile, from the tile's blocks of x, h, c, the weights and the bias: the one store into window 6. -/
def hNew (x h cp : Vec F S128x1024 .f32) (wx wh : Vec F S1024x4096 .bf16) (b : Vec F S1x4096 .f32) : Vec F S128x1024 .f32 :=
  View.canon [⟨rTile, k0_pay3 (View.ld x rTile) (View.ld h rTile) (View.ld wx rWeight) (View.ld wh rWeight) (View.ld b rBias) (View.ld cp rTile)⟩]

/-- The new cell state of a tile: the one store into window 7. -/
def cNew (x h cp : Vec F S128x1024 .f32) (wx wh : Vec F S1024x4096 .bf16) (b : Vec F S1x4096 .f32) : Vec F S128x1024 .f32 :=
  View.canon [⟨rTile, k0_pay2 (View.ld x rTile) (View.ld h rTile) (View.ld wx rWeight) (View.ld wh rWeight) (View.ld b rBias) (View.ld cp rTile)⟩]

/-- A store of the whole tile covers the buffer. -/
theorem cover_tile (p0 : Vec F S128x1024 .f32) (y : S128x1024.Idx) :
    ∃ pc ∈ ([⟨rTile, p0⟩] : List (View.Piece (Elt F) S128x1024 .f32)), y ∈ pc.1.set :=
  View.cover_of_tiled [⟨rTile, p0⟩] S128x1024.size (by rfl) y

/-! ## The body's triple -/

set_option maxHeartbeats 1000000 in
/-- The body on whole staging memrefs, the six inputs' at read contents `x0 … x5` and the two results' at anything, runs to the
    continuation holding the inputs' as they were and the results' at the new hidden and cell states of those contents. -/
theorem sound_kernel (c : Dev nD) (E : Set ℕ) (i : grid0.Coords)
    (arg1 : Memref sig .tc .vmem S128x1024 .f32) (harg1 : arg1.IsWhole) (arg2 : Memref sig .tc .vmem S128x1024 .f32) (harg2 : arg2.IsWhole)
    (arg3 : Memref sig .tc .vmem S128x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S128x1024 .f32) (harg7 : arg7.IsWhole) (arg8 : Memref sig .tc .vmem S128x1024 .f32) (harg8 : arg8.IsWhole)
    (x0 x1 x2 : Vec F S128x1024 .f32) (x3 x4 : Vec F S1024x4096 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (hNew x0 x1 x2 x3 x4 x5) ∗ owns (c : Thread nD τ) arg8 fullShare (cNew x0 x1 x2 x3 x4 x5)) -∗ K ⟨⟩))
      ⊢ wp frame (wpE (defs₀ (F := F)) Variants.none c none) E
          (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_tile _)
  iexists _; isplitr
  swap; · iexact H7
  ipureintro
  exact View.read_writes_eq_canon _ _ _ (cover_tile _)

/-! ## The call's proof data -/

/-- On core `c`: the arrays as the call finds them; after the body at tile `t` each input's buffer at its block and the two
    results' at the new hidden and cell states of the six blocks; nothing carried, nothing owed, whole shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hNew (iblk m c 0 t) (iblk m c 1 t) (iblk m c 2 t) (iblk m c 3 t) (iblk m c 4 t) (iblk m c 5 t)
    | ⟨7, _⟩ => cNew (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t
    = hNew (iblk m c 0 t) (iblk m c 1 t) (iblk m c 2 t) (iblk m c 3 t) (iblk m c 4 t) (iblk m c 5 t) := by dsimp only [dats]
theorem after_7 (c : Dev nD) (t : Fin cfg0.N) : (dats m 0 c).after 7 t
    = cNew (iblk m c 0 t) (iblk m c 1 t) (iblk m c 2 t) (iblk m c 3 t) (iblk m c 4 t) (iblk m c 5 t) := by dsimp only [dats]

theorem before_0 (c : Dev nD) (t : Fin cfg0.N) (d) : (dats m 0 c).before 0 t d = iblk m c 0 t :=
  before0_of m (dats m 0 c) (A_eq m c 0) (after_0 m c) t d
theorem before_1 (c : Dev nD) (t : Fin cfg0.N) (d) : (dats m 0 c).before 1 t d = iblk m c 1 t :=
  before1_of m (dats m 0 c) (A_eq m c 1) (after_1 m c) t d
theorem before_2 (c : Dev nD) (t : Fin cfg0.N) (d) : (dats m 0 c).before 2 t d = iblk m c 2 t :=
  before2_of m (dats m 0 c) (A_eq m c 2) (after_2 m c) t d
theorem before_3 (c : Dev nD) (t : Fin cfg0.N) (d) : (dats m 0 c).before 3 t d = iblk m c 3 t :=
  before3_of m (dats m 0 c) (A_eq m c 3) (after_3 m c) t d
theorem before_4 (c : Dev nD) (t : Fin cfg0.N) (d) : (dats m 0 c).before 4 t d = iblk m c 4 t :=
  before4_of m (dats m 0 c) (A_eq m c 4) (after_4 m c) t d
theorem before_5 (c : Dev nD) (t : Fin cfg0.N) (d) : (dats m 0 c).before 5 t d = iblk m c 5 t :=
  before5_of m (dats m 0 c) (A_eq m c 5) (after_5 m c) t d

/-! ## The body obligation, at a generic tile -/

/-- What the body is called with at tile `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any tile: the inputs' memrefs hold their blocks, so the body's triple applies; the invariant and the core's
    debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every tile. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates without a fault, every array of the
    call ends at what the proof data compute (an input as found, a result overwritten tile by tile by what the body left), and
    every other unscoped buffer as the call found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- After a run each argument is as launched. x, h and c are staged inputs, which a run leaves at the entry contents; the twelve
    weight and bias arguments bypass the call; and the entry contents of an argument are the launch's. -/
theorem kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
    ⟨((h c).1 0).trans (((dats m 0 c).arrAt_in 0 rfl _).trans ((A_eq m c 0).trans (V_of_not_written m c main_arg0 (by decide)))),
     ((h c).1 1).trans (((dats m 0 c).arrAt_in 1 rfl _).trans ((A_eq m c 1).trans (V_of_not_written m c main_arg1 (by decide)))),
     ((h c).1 2).trans (((dats m 0 c).arrAt_in 2 rfl _).trans ((A_eq m c 2).trans (V_of_not_written m c main_arg2 (by decide)))),
     ((h c).2 main_arg3 (Pipeline.mem_restRefs_of main_arg3 (by decide) (by decide))).trans (V_of_not_written m c main_arg3 (by decide)),
     ((h c).2 main_arg4 (Pipeline.mem_restRefs_of main_arg4 (by decide) (by decide))).trans (V_of_not_written m c main_arg4 (by decide)),
     ((h c).2 main_arg5 (Pipeline.mem_restRefs_of main_arg5 (by decide) (by decide))).trans (V_of_not_written m c main_arg5 (by decide)),
     ((h c).2 main_arg6 (Pipeline.mem_restRefs_of main_arg6 (by decide) (by decide))).trans (V_of_not_written m c main_arg6 (by decide)),
     ((h c).2 main_arg7 (Pipeline.mem_restRefs_of main_arg7 (by decide) (by decide))).trans (V_of_not_written m c main_arg7 (by decide)),
     ((h c).2 main_arg8 (Pipeline.mem_restRefs_of main_arg8 (by decide) (by decide))).trans (V_of_not_written m c main_arg8 (by decide)),
     ((h c).2 main_arg9 (Pipeline.mem_restRefs_of main_arg9 (by decide) (by decide))).trans (V_of_not_written m c main_arg9 (by decide)),
     ((h c).2 main_arg10 (Pipeline.mem_restRefs_of main_arg10 (by decide) (by decide))).trans (V_of_not_written m c main_arg10 (by decide)),
     ((h c).2 main_arg11 (Pipeline.mem_restRefs_of main_arg11 (by decide) (by decide))).trans (V_of_not_written m c main_arg11 (by decide)),
     ((h c).2 main_arg12 (Pipeline.mem_restRefs_of main_arg12 (by decide) (by decide))).trans (V_of_not_written m c main_arg12 (by decide)),
     ((h c).2 main_arg13 (Pipeline.mem_restRefs_of main_arg13 (by decide) (by decide))).trans (V_of_not_written m c main_arg13 (by decide)),
     ((h c).2 main_arg14 (Pipeline.mem_restRefs_of main_arg14 (by decide) (by decide))).trans (V_of_not_written m c main_arg14 (by decide))⟩

/-- The frame: the run, with each argument read off its post. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => kept m r h c) (run_main m ρ)

end Cert.Kernel.Cell

end
-- ==== Proof.KernelIdealFrame.lean ====
/-
  The fused LSTM cell's program runs to its end, faults nowhere, and leaves its fifteen argument arrays as launched;
  and after the run each result array is, block by block, what the cell's body made of the arrays' blocks.

  @main is fourteen host lines and one pallas_call. The host lines build the two fused weight matrices [1024, 4096]
  (four transposed gate matrices side by side, narrowed to bf16) and the fused bias row [1, 4096]; none of them writes an
  argument, so the call finds every argument as launched. The call walks 64 row tiles of 128 rows. At a tile the body
  loads the tile's rows of x, h and c, the two resident weight matrices and the bias row, and overwrites the tile's
  rows of both results whole: the new hidden state and the new cell state. It keeps nothing from tile to tile, and what it
  reads of a result's buffer before storing it is never used. So the contents of a result's buffer after a tile are a
  closed function of the six input blocks there, whatever the buffer held before.
-/
import proofs.«143105_j29850022707330_1_alg».proof.Proof.Gen.KernelIdeal.Launch
import proofs.«143105_j29850022707330_1_alg».proof.Proof.Gen.KernelIdeal.Skeleton
import proofs.«143105_j29850022707330_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the call -/

/-- Core `c`'s buffers when the call is entered: the launch contents run through the fourteen host lines. -/
abbrev V (c : Dev nD) (b : Ref sig .tc) : Buf (Elt F) ((c : Thread nD τ).loc b) := StableHlo.after hostOps0 (fun b => m (c, b)) b

/-- No host line allocates. -/
theorem hostOps0_fresh : (hostOps0 : List (HloOp τ sig (Elt F))).Forall fun op => op.fresh = ∅ := by
  simp only [List.Forall]; repeat' constructor

/-- @main is the host lines, then the call: the call is entered with the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Every buffer a host line writes: the fourteen intermediate values, no argument among them. -/
abbrev hostWritten : List (Ref sig .tc) :=
  [main_v0, main_v1, main_v2, main_v3, main_v4, main_v5, main_v6, main_v7, main_v8, main_v9, main_v10, main_v11, main_v12, main_v13]

theorem hostOps0_writes : (hostOps0 : List (HloOp τ sig (Elt F))).Forall fun op =>
    op.writes ⊆ (hostWritten.map (Proc.devRef (τ := τ) .tc)).toFinset := by
  simp only [hostOps0, List.Forall, StableHlo.unary_writes, StableHlo.nary_writes, StableHlo.reshape_writes, Finset.singleton_subset_iff]
  repeat' apply And.intro
  all_goals exact List.mem_toFinset.mpr (List.mem_map_of_mem (by decide))

/-- A buffer no host line writes is found by the call as launched: every argument is such a buffer. -/
theorem V_of_not_written (c : Dev nD) (r : Ref sig .tc) (hr : r ∉ hostWritten) : V m c r = m ((c : Thread nD τ).loc r) :=
  StableHlo.after_of_writes_sub hostOps0 _ hostOps0_writes hr

/-! ## The windows' blocks -/

/-- Window `w`'s block at tile `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds the window's block at every tile, fetched there or not (a resident window is fetched
    once and its block index never moves), for any proof data over the entry contents whose body leaves input blocks in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the two result buffers -/

/-- The whole of a row tile, of a weight matrix, of the bias row: every access of the body is one of these. -/
abbrev rTile : Rect S128x1024 := Rect.unit (s := S128x1024) ![0, 0] S128x1024.size inb_S128x1024_S128x1024_0_0
abbrev rWeight : Rect S1024x4096 := Rect.unit (s := S1024x4096) ![0, 0] S1024x4096.size inb_S1024x4096_S1024x4096_0_0
abbrev rBias : Rect S1x4096 := Rect.unit (s := S1x4096) ![0, 0] S1x4096.size inb_S1x4096_S1x4096_0_0

/-- The new hidden state of a tile, from the tile's blocks of x, h, c, the weights and the bias: the one store into window 6. -/
def hNew (x h cp : Vec F S128x1024 .f32) (wx wh : Vec F S1024x4096 .bf16) (b : Vec F S1x4096 .f32) : Vec F S128x1024 .f32 :=
  View.canon [⟨rTile, k0_pay3 (View.ld x rTile) (View.ld h rTile) (View.ld wx rWeight) (View.ld wh rWeight) (View.ld b rBias) (View.ld cp rTile)⟩]

/-- The new cell state of a tile: the one store into window 7. -/
def cNew (x h cp : Vec F S128x1024 .f32) (wx wh : Vec F S1024x4096 .bf16) (b : Vec F S1x4096 .f32) : Vec F S128x1024 .f32 :=
  View.canon [⟨rTile, k0_pay2 (View.ld x rTile) (View.ld h rTile) (View.ld wx rWeight) (View.ld wh rWeight) (View.ld b rBias) (View.ld cp rTile)⟩]

/-- A store of the whole tile covers the buffer. -/
theorem cover_tile (p0 : Vec F S128x1024 .f32) (y : S128x1024.Idx) :
    ∃ pc ∈ ([⟨rTile, p0⟩] : List (View.Piece (Elt F) S128x1024 .f32)), y ∈ pc.1.set :=
  View.cover_of_tiled [⟨rTile, p0⟩] S128x1024.size (by rfl) y

/-! ## The body's triple -/

set_option maxHeartbeats 1000000 in
/-- The body on whole staging memrefs, the six inputs' at read contents `x0 … x5` and the two results' at anything, runs to the
    continuation holding the inputs' as they were and the results' at the new hidden and cell states of those contents. -/
theorem sound_kernel (c : Dev nD) (E : Set ℕ) (i : grid0.Coords)
    (arg1 : Memref sig .tc .vmem S128x1024 .f32) (harg1 : arg1.IsWhole) (arg2 : Memref sig .tc .vmem S128x1024 .f32) (harg2 : arg2.IsWhole)
    (arg3 : Memref sig .tc .vmem S128x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S128x1024 .f32) (harg7 : arg7.IsWhole) (arg8 : Memref sig .tc .vmem S128x1024 .f32) (harg8 : arg8.IsWhole)
    (x0 x1 x2 : Vec F S128x1024 .f32) (x3 x4 : Vec F S1024x4096 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (hNew x0 x1 x2 x3 x4 x5) ∗ owns (c : Thread nD τ) arg8 fullShare (cNew x0 x1 x2 x3 x4 x5)) -∗ K ⟨⟩))
      ⊢ wp frame (wpE (defs₀ (F := F)) Variants.none c none) E
          (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_tile _)
  iexists _; isplitr
  swap; · iexact H7
  ipureintro
  exact View.read_writes_eq_canon _ _ _ (cover_tile _)

/-! ## The call's proof data -/

/-- On core `c`: the arrays as the call finds them; after the body at tile `t` each input's buffer at its block and the two
    results' at the new hidden and cell states of the six blocks; nothing carried, nothing owed, whole shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hNew (iblk m c 0 t) (iblk m c 1 t) (iblk m c 2 t) (iblk m c 3 t) (iblk m c 4 t) (iblk m c 5 t)
    | ⟨7, _⟩ => cNew (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t
    = hNew (iblk m c 0 t) (iblk m c 1 t) (iblk m c 2 t) (iblk m c 3 t) (iblk m c 4 t) (iblk m c 5 t) := by dsimp only [dats]
theorem after_7 (c : Dev nD) (t : Fin cfg0.N) : (dats m 0 c).after 7 t
    = cNew (iblk m c 0 t) (iblk m c 1 t) (iblk m c 2 t) (iblk m c 3 t) (iblk m c 4 t) (iblk m c 5 t) := by dsimp only [dats]

theorem before_0 (c : Dev nD) (t : Fin cfg0.N) (d) : (dats m 0 c).before 0 t d = iblk m c 0 t :=
  before0_of m (dats m 0 c) (A_eq m c 0) (after_0 m c) t d
theorem before_1 (c : Dev nD) (t : Fin cfg0.N) (d) : (dats m 0 c).before 1 t d = iblk m c 1 t :=
  before1_of m (dats m 0 c) (A_eq m c 1) (after_1 m c) t d
theorem before_2 (c : Dev nD) (t : Fin cfg0.N) (d) : (dats m 0 c).before 2 t d = iblk m c 2 t :=
  before2_of m (dats m 0 c) (A_eq m c 2) (after_2 m c) t d
theorem before_3 (c : Dev nD) (t : Fin cfg0.N) (d) : (dats m 0 c).before 3 t d = iblk m c 3 t :=
  before3_of m (dats m 0 c) (A_eq m c 3) (after_3 m c) t d
theorem before_4 (c : Dev nD) (t : Fin cfg0.N) (d) : (dats m 0 c).before 4 t d = iblk m c 4 t :=
  before4_of m (dats m 0 c) (A_eq m c 4) (after_4 m c) t d
theorem before_5 (c : Dev nD) (t : Fin cfg0.N) (d) : (dats m 0 c).before 5 t d = iblk m c 5 t :=
  before5_of m (dats m 0 c) (A_eq m c 5) (after_5 m c) t d

/-! ## The body obligation, at a generic tile -/

/-- What the body is called with at tile `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any tile: the inputs' memrefs hold their blocks, so the body's triple applies; the invariant and the core's
    debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every tile. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates without a fault, every array of the
    call ends at what the proof data compute (an input as found, a result overwritten tile by tile by what the body left), and
    every other unscoped buffer as the call found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- After a run each argument is as launched. x, h and c are staged inputs, which a run leaves at the entry contents; the twelve
    weight and bias arguments bypass the call; and the entry contents of an argument are the launch's. -/
theorem kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
    ⟨((h c).1 0).trans (((dats m 0 c).arrAt_in 0 rfl _).trans ((A_eq m c 0).trans (V_of_not_written m c main_arg0 (by decide)))),
     ((h c).1 1).trans (((dats m 0 c).arrAt_in 1 rfl _).trans ((A_eq m c 1).trans (V_of_not_written m c main_arg1 (by decide)))),
     ((h c).1 2).trans (((dats m 0 c).arrAt_in 2 rfl _).trans ((A_eq m c 2).trans (V_of_not_written m c main_arg2 (by decide)))),
     ((h c).2 main_arg3 (Pipeline.mem_restRefs_of main_arg3 (by decide) (by decide))).trans (V_of_not_written m c main_arg3 (by decide)),
     ((h c).2 main_arg4 (Pipeline.mem_restRefs_of main_arg4 (by decide) (by decide))).trans (V_of_not_written m c main_arg4 (by decide)),
     ((h c).2 main_arg5 (Pipeline.mem_restRefs_of main_arg5 (by decide) (by decide))).trans (V_of_not_written m c main_arg5 (by decide)),
     ((h c).2 main_arg6 (Pipeline.mem_restRefs_of main_arg6 (by decide) (by decide))).trans (V_of_not_written m c main_arg6 (by decide)),
     ((h c).2 main_arg7 (Pipeline.mem_restRefs_of main_arg7 (by decide) (by decide))).trans (V_of_not_written m c main_arg7 (by decide)),
     ((h c).2 main_arg8 (Pipeline.mem_restRefs_of main_arg8 (by decide) (by decide))).trans (V_of_not_written m c main_arg8 (by decide)),
     ((h c).2 main_arg9 (Pipeline.mem_restRefs_of main_arg9 (by decide) (by decide))).trans (V_of_not_written m c main_arg9 (by decide)),
     ((h c).2 main_arg10 (Pipeline.mem_restRefs_of main_arg10 (by decide) (by decide))).trans (V_of_not_written m c main_arg10 (by decide)),
     ((h c).2 main_arg11 (Pipeline.mem_restRefs_of main_arg11 (by decide) (by decide))).trans (V_of_not_written m c main_arg11 (by decide)),
     ((h c).2 main_arg12 (Pipeline.mem_restRefs_of main_arg12 (by decide) (by decide))).trans (V_of_not_written m c main_arg12 (by decide)),
     ((h c).2 main_arg13 (Pipeline.mem_restRefs_of main_arg13 (by decide) (by decide))).trans (V_of_not_written m c main_arg13 (by decide)),
     ((h c).2 main_arg14 (Pipeline.mem_restRefs_of main_arg14 (by decide) (by decide))).trans (V_of_not_written m c main_arg14 (by decide))⟩

/-- The frame: the run, with each argument read off its post. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => kept m r h c) (run_main m ρ)

end Cert.KernelIdeal.Cell

end
-- ==== Proof.CellSpec.lean ====
/-
  The LSTM cell, row by row, on the extended reals.

  A row of the cell reads one row of x and of h (1024 entries each), the two fused weight matrices [1024, 4096] and the
  fused bias (4096 entries), and forms the row's 4096 pre-activations  z q = (Σ_k x k · Wx k q + Σ_k h k · Wh k q) + b q.
  The four gates are the four consecutive stretches of 1024 columns of z: input, forget, cell candidate, output. With the
  row's previous cell state c the new cell state is  σ(z_f)·c + σ(z_i)·tanh(z_g)  and the new hidden state  σ(z_o)·tanh
  of that, σ the logistic function. Rows do not interact, so a tile of rows computes the rows of the whole array that
  it holds: `cellOut_rows`, `hidOut_rows`.
-/
import Idealize.ShloMosaic.PureOps.Ideal
import Idealize.ShloMosaic.Lib.ValueIdx

noncomputable section

namespace Cert.CellSpec

open Idealize.ShloMosaic Idealize.ShloMosaic.ValueIdx

/-- The fused weight matrices' shape. -/
abbrev SW : Shape := ⟨2, ![1024, 4096]⟩

/-- Column `off + j` of a row of 4096 pre-activations: unit `j` of the gate whose stretch starts at `off`. -/
abbrev gcol (off : Nat) (hoff : off + 1024 ≤ 4096) (j : Fin 1024) : Fin 4096 := ⟨off + j.val, by have := j.isLt; omega⟩

/-- Column `j` itself: the first gate's stretch starts at 0. -/
abbrev gcol0 (j : Fin 1024) : Fin 4096 := ⟨j.val, by have := j.isLt; omega⟩

/-- One row's pre-activations from the row of x, the row of h, the fused weights and the fused bias. -/
def zrow (xr hr : Fin 1024 → EReal) (wx wh : SW.Idx → EReal) (b : Fin 4096 → EReal) (q : Fin 4096) : EReal :=
  (∑ k : Fin 1024, xr k * wx (ix2 k q) + ∑ k : Fin 1024, hr k * wh (ix2 k q)) + b q

/-- The new cell state at unit `j` of a row with pre-activations `z` and previous cell state `cv` there. -/
def cgate (z : Fin 4096 → EReal) (cv : EReal) (j : Fin 1024) : EReal :=
  Ideal.logistic (z (gcol 1024 (by norm_num) j)) * cv + Ideal.logistic (z (gcol0 j)) * Ideal.tanh (z (gcol 2048 (by norm_num) j))

/-- The new hidden state there. -/
def hgate (z : Fin 4096 → EReal) (cv : EReal) (j : Fin 1024) : EReal :=
  Ideal.logistic (z (gcol 3072 (by norm_num) j)) * Ideal.tanh (cgate z cv j)

/-- Row `r` of a matrix of 1024 columns. -/
abbrev rowOf {R : Nat} (x : (⟨2, ![R, 1024]⟩ : Shape).Idx → EReal) (r : Fin R) : Fin 1024 → EReal := fun k => x (ix2 r k)

/-- The new cell state of `R` rows, as one array. -/
def cellOut {R : Nat} (x h cp : (⟨2, ![R, 1024]⟩ : Shape).Idx → EReal) (wx wh : SW.Idx → EReal) (b : Fin 4096 → EReal) :
    (⟨2, ![R, 1024]⟩ : Shape).Idx → EReal :=
  fun i => cgate (zrow (rowOf x (i 0)) (rowOf h (i 0)) wx wh b) (cp i) (i 1)

/-- The new hidden state of `R` rows, as one array. -/
def hidOut {R : Nat} (x h cp : (⟨2, ![R, 1024]⟩ : Shape).Idx → EReal) (wx wh : SW.Idx → EReal) (b : Fin 4096 → EReal) :
    (⟨2, ![R, 1024]⟩ : Shape).Idx → EReal :=
  fun i => hgate (zrow (rowOf x (i 0)) (rowOf h (i 0)) wx wh b) (cp i) (i 1)

/-- Rows do not interact: if the rows of a tile are rows `ρ p` of the whole arrays, and the tile is handed the same weights and
    bias entry by entry, the tile's new cell state at `(p, j)` is the whole arrays' at `(ρ p, j)`. -/
theorem cellOut_rows {R R' : Nat} (ρ : Fin R' → Fin R) (x h cp : (⟨2, ![R, 1024]⟩ : Shape).Idx → EReal)
    (xb hb cpb : (⟨2, ![R', 1024]⟩ : Shape).Idx → EReal)
    (hx : ∀ p k, xb (ix2 p k) = x (ix2 (ρ p) k)) (hh : ∀ p k, hb (ix2 p k) = h (ix2 (ρ p) k)) (hc : ∀ p k, cpb (ix2 p k) = cp (ix2 (ρ p) k))
    (wx wh wxb whb : SW.Idx → EReal) (b bb : Fin 4096 → EReal)
    (hwx : ∀ i, wxb i = wx i) (hwh : ∀ i, whb i = wh i) (hbb : ∀ q, bb q = b q) (p : Fin R') (j : Fin 1024) :
    cellOut xb hb cpb wxb whb bb (ix2 p j) = cellOut x h cp wx wh b (ix2 (ρ p) j) := by
  obtain rfl : wxb = wx := funext hwx
  obtain rfl : whb = wh := funext hwh
  obtain rfl : bb = b := funext hbb
  unfold cellOut
  have e1 : rowOf xb p = rowOf x (ρ p) := funext fun k => hx p k
  have e2 : rowOf hb p = rowOf h (ρ p) := funext fun k => hh p k
  show cgate (zrow (rowOf xb p) (rowOf hb p) wxb whb bb) (cpb (ix2 p j)) j = cgate (zrow (rowOf x (ρ p)) (rowOf h (ρ p)) wxb whb bb) (cp (ix2 (ρ p) j)) j
  rw [e1, e2, hc p j]

/-- The same of the new hidden state. -/
theorem hidOut_rows {R R' : Nat} (ρ : Fin R' → Fin R) (x h cp : (⟨2, ![R, 1024]⟩ : Shape).Idx → EReal)
    (xb hb cpb : (⟨2, ![R', 1024]⟩ : Shape).Idx → EReal)
    (hx : ∀ p k, xb (ix2 p k) = x (ix2 (ρ p) k)) (hh : ∀ p k, hb (ix2 p k) = h (ix2 (ρ p) k)) (hc : ∀ p k, cpb (ix2 p k) = cp (ix2 (ρ p) k))
    (wx wh wxb whb : SW.Idx → EReal) (b bb : Fin 4096 → EReal)
    (hwx : ∀ i, wxb i = wx i) (hwh : ∀ i, whb i = wh i) (hbb : ∀ q, bb q = b q) (p : Fin R') (j : Fin 1024) :
    hidOut xb hb cpb wxb whb bb (ix2 p j) = hidOut x h cp wx wh b (ix2 (ρ p) j) := by
  obtain rfl : wxb = wx := funext hwx
  obtain rfl : whb = wh := funext hwh
  obtain rfl : bb = b := funext hbb
  unfold hidOut
  have e1 : rowOf xb p = rowOf x (ρ p) := funext fun k => hx p k
  have e2 : rowOf hb p = rowOf h (ρ p) := funext fun k => hh p k
  show hgate (zrow (rowOf xb p) (rowOf hb p) wxb whb bb) (cpb (ix2 p j)) j = hgate (zrow (rowOf x (ρ p)) (rowOf h (ρ p)) wxb whb bb) (cp (ix2 (ρ p) j)) j
  rw [e1, e2, hc p j]

/-- The f32 pattern of 1.0 is the real 1. -/
theorem one_f32 : Ideal.ofBits .f32 0x3F800000#32 = (1 : EReal) := by
  simp [Ideal.ofBits, Ideal.ieee, -EReal.coe_mul]; norm_num

/-- The logistic function spelt as a reference spells it: one over one plus the exponential of the negation. -/
theorem logistic_spelt (z : EReal) :
    Ideal.div (Ideal.ofBits .f32 0x3F800000#32) (Ideal.ofBits .f32 0x3F800000#32 + Ideal.exp (-z)) = Ideal.logistic z := by
  rw [one_f32]; rfl

end Cert.CellSpec

end
-- ==== Proof.KernelIdealCell.lean ====
/-
  What the idealized kernel's run leaves in its two result arrays: the row-wise cell of the arrays the call finds.

  At a tile the body's two stores are, index by index, the new cell and hidden states of the tile's rows: the two matrix
  products into a zero accumulator are plain sums over the contracted axis, the narrowing of x and h to bf16 is the identity
  on the extended reals, the bias row is repeated down the tile, and the four gates are four column slices. The tile's
  rows of x, h and c are rows `128·t + p` of the arrays, and the weight and bias windows hold their whole arrays at every
  tile; since rows do not interact, tile `t` writes back rows `128·t … 128·t + 127` of the whole arrays' cell. The 64
  tiles cover the 8192 rows.
-/
import proofs.«143105_j29850022707330_1_alg».proof.Proof.KernelIdealFrame
import proofs.«143105_j29850022707330_1_alg».proof.Proof.CellSpec
import Idealize.ShloMosaic.Lib.Pipeline.Value
import Idealize.ShloMosaic.Lib.ValueIdx
import Idealize.ShloMosaic.PureOps.Ideal.Laws

set_option maxRecDepth 16384

noncomputable section

namespace Cert.KernelIdeal.CellValue

open Cert.KernelIdeal Cert.KernelIdeal.Gen Cert.KernelIdeal.Cell
open Idealize.ShloMosaic Idealize.ShloMosaic.TcCoe Idealize.SL.Sem Idealize.ShloMosaic.ValueIdx Cert.CellSpec
open Idealize.ShloMosaic.Pipeline (Dat)

/-! ## The tile's matrix product as a sum -/

theorem lhs_0 (i : S128x4096.Idx) (q : dot_S128x1024_S1024x4096_S128x4096_1_0_0_1_n_n.contr.Idx) :
    (dot_S128x1024_S1024x4096_S128x4096_1_0_0_1_n_n.lhsIdx i q 0).val = (i 0).val := by
  unfold DotDims.lhsIdx
  rw [dif_neg (show ¬(0 : Fin S128x1024.rank) ∈ dot_S128x1024_S1024x4096_S128x4096_1_0_0_1_n_n.lhsBatch by decide), dif_pos (show (0 : Fin S128x1024.rank) ∈ dot_S128x1024_S1024x4096_S128x4096_1_0_0_1_n_n.lhsNonContracting by decide)]
  rfl
theorem lhs_1 (i : S128x4096.Idx) (q : dot_S128x1024_S1024x4096_S128x4096_1_0_0_1_n_n.contr.Idx) :
    (dot_S128x1024_S1024x4096_S128x4096_1_0_0_1_n_n.lhsIdx i q 1).val = (q ⟨0, by decide⟩).val :=
  dot_S128x1024_S1024x4096_S128x4096_1_0_0_1_n_n.lhsIdx_val_of_single rfl i q
theorem rhs_0 (i : S128x4096.Idx) (q : dot_S128x1024_S1024x4096_S128x4096_1_0_0_1_n_n.contr.Idx) :
    (dot_S128x1024_S1024x4096_S128x4096_1_0_0_1_n_n.rhsIdx i q 0).val = (q ⟨0, by decide⟩).val :=
  dot_S128x1024_S1024x4096_S128x4096_1_0_0_1_n_n.rhsIdx_val_of_single rfl i q
theorem rhs_1 (i : S128x4096.Idx) (q : dot_S128x1024_S1024x4096_S128x4096_1_0_0_1_n_n.contr.Idx) :
    (dot_S128x1024_S1024x4096_S128x4096_1_0_0_1_n_n.rhsIdx i q 1).val = (i 1).val := by
  unfold DotDims.rhsIdx
  rw [dif_neg (show ¬(1 : Fin S1024x4096.rank) ∈ dot_S128x1024_S1024x4096_S128x4096_1_0_0_1_n_n.rhsBatch by decide), dif_pos (show (1 : Fin S1024x4096.rank) ∈ dot_S128x1024_S1024x4096_S128x4096_1_0_0_1_n_n.rhsNonContracting by decide)]
  rfl

/-- Entry `(p, q)` of a tile's product into the zero accumulator is the sum over `k` of row `p` of the left factor against
    column `q` of the right. -/
theorem tile_matmul {φ₁ φ₂ : FTy} (l : FVec Ideal S128x1024 φ₁) (r : FVec Ideal S1024x4096 φ₂) (j : S128x4096.Idx) :
    FloatOps.matmul dot_S128x1024_S1024x4096_S128x4096_1_0_0_1_n_n none l r (constant S128x4096 .f32 0x00000000#32) j
      = ∑ k : Fin 1024, l (ix2 (n0 := 128) (n1 := 1024) (j 0) k) * r (ix2 (n0 := 1024) (n1 := 4096) k (j 1)) := by
  rw [Ideal.matmul_constant_zero_apply, ← Equiv.sum_comp (ValueIdx.contrEquiv1 dot_S128x1024_S1024x4096_S128x4096_1_0_0_1_n_n 1024 rfl rfl).symm]
  refine Finset.sum_congr rfl fun k _ => ?_
  have hk := ValueIdx.contrEquiv1_symm_val dot_S128x1024_S1024x4096_S128x4096_1_0_0_1_n_n 1024 rfl rfl k
  have el : dot_S128x1024_S1024x4096_S128x4096_1_0_0_1_n_n.lhsIdx j ((ValueIdx.contrEquiv1 dot_S128x1024_S1024x4096_S128x4096_1_0_0_1_n_n 1024 rfl rfl).symm k) = ix2 (n0 := 128) (n1 := 1024) (j 0) k := funext fun a => Fin.ext (by
    match a with
    | ⟨0, _⟩ => exact lhs_0 _ _
    | ⟨1, _⟩ => exact (lhs_1 _ _).trans hk)
  have er : dot_S128x1024_S1024x4096_S128x4096_1_0_0_1_n_n.rhsIdx j ((ValueIdx.contrEquiv1 dot_S128x1024_S1024x4096_S128x4096_1_0_0_1_n_n 1024 rfl rfl).symm k) = ix2 (n0 := 1024) (n1 := 4096) k (j 1) := funext fun a => Fin.ext (by
    match a with
    | ⟨0, _⟩ => exact (rhs_0 _ _).trans hk
    | ⟨1, _⟩ => exact rhs_1 _ _)
  rw [el, er]

/-! ## The body's payloads at an index -/

/-- The bias row, as a function of the column. -/
abbrev biasOf (bb : Vec Ideal S1x4096 .f32) : Fin 4096 → EReal := fun q => bb (ix2 (n0 := 1) (n1 := 4096) 0 q)

/-- The tile's pre-activations: row `j 0` of the tile at column `j 1`. -/
theorem pay1_apply (x0 x1 : Vec Ideal S128x1024 .f32) (w0 w1 : Vec Ideal S1024x4096 .bf16) (bb : Vec Ideal S1x4096 .f32) (j : S128x4096.Idx) :
    k0_pay1 (F := Ideal) x0 x1 w0 w1 bb j
      = zrow (rowOf (R := 128) x0 (j 0)) (rowOf (R := 128) x1 (j 0)) w0 w1 (biasOf bb) (j 1) := by
  unfold k0_pay1
  show FloatOps.addf (F := Ideal) (FloatOps.addf (F := Ideal)
      (FloatOps.matmul (F := Ideal) dot_S128x1024_S1024x4096_S128x4096_1_0_0_1_n_n none (truncf (F := Ideal) .bf16 x0 Facts₀.bitsLt_bf16_f32) (shapeCast (α := Ideal .bf16) S1024x4096 w0 Facts₀.shapeCasts_S1024x4096_S1024x4096) (constant (F := Ideal) S128x4096 .f32 0x00000000#32) j)
      (FloatOps.matmul (F := Ideal) dot_S128x1024_S1024x4096_S128x4096_1_0_0_1_n_n none (truncf (F := Ideal) .bf16 x1 Facts₀.bitsLt_bf16_f32) (shapeCast (α := Ideal .bf16) S1024x4096 w1 Facts₀.shapeCasts_S1024x4096_S1024x4096) (constant (F := Ideal) S128x4096 .f32 0x00000000#32) j))
      (broadcastTo (α := Ideal .f32) S128x4096 (shapeCast (α := Ideal .f32) S1x4096 bb Facts₀.shapeCasts_S1x4096_S1x4096) Facts₀.broadcasts_S1x4096_S128x4096 j) = _
  rw [shapeCast_self, shapeCast_self, shapeCast_self, tile_matmul, tile_matmul,
    broadcastTo_apply bb Facts₀.broadcasts_S1x4096_S128x4096 j (ix2 (n0 := 1) (n1 := 4096) 0 (j 1)) (fun a => match a with
      | ⟨0, _⟩ => by show 0 = if (1 : Nat) = 1 then 0 else (j 0).val; rw [if_pos rfl]
      | ⟨1, _⟩ => by show (j 1).val = if (4096 : Nat) = 1 then 0 else (j 1).val; rw [if_neg (by decide)])]
  rfl

/-- The store into the cell-state window, at an index of the tile: the new cell state of the tile's rows. -/
theorem pay2_apply (x0 x1 : Vec Ideal S128x1024 .f32) (w0 w1 : Vec Ideal S1024x4096 .bf16) (bb : Vec Ideal S1x4096 .f32)
    (cp : Vec Ideal S128x1024 .f32) (y : S128x1024.Idx) :
    k0_pay2 (F := Ideal) x0 x1 w0 w1 bb cp y = cellOut (R := 128) x0 x1 cp w0 w1 (biasOf bb) y := by
  unfold k0_pay2
  show FloatOps.addf
      (FloatOps.mulf (FloatOps.logistic (extractStridedSlice S128x1024 ![0, 1024] (k0_pay1 (F := Ideal) x0 x1 w0 w1 bb) Facts₀.slices_S128x4096_o0_1024_S128x1024 y)) (cp y))
      (FloatOps.mulf (FloatOps.logistic (extractStridedSlice S128x1024 ![0, 0] (k0_pay1 (F := Ideal) x0 x1 w0 w1 bb) Facts₀.slices_S128x4096_o0_0_S128x1024 y))
        (FloatOps.tanh (extractStridedSlice S128x1024 ![0, 2048] (k0_pay1 (F := Ideal) x0 x1 w0 w1 bb) Facts₀.slices_S128x4096_o0_2048_S128x1024 y))) = _
  rw [extractStridedSlice_apply ![0, 1024] _ Facts₀.slices_S128x4096_o0_1024_S128x1024 y (ix2 (n0 := 128) (n1 := 4096) (y 0) (gcol 1024 (by norm_num) (y 1))) (fun a => match a with
      | ⟨0, _⟩ => by show (y 0).val = 0 + (y 0).val; omega
      | ⟨1, _⟩ => by show 1024 + (y 1).val = 1024 + (y 1).val; rfl),
    extractStridedSlice_apply ![0, 0] _ Facts₀.slices_S128x4096_o0_0_S128x1024 y (ix2 (n0 := 128) (n1 := 4096) (y 0) (gcol0 (y 1))) (fun a => match a with
      | ⟨0, _⟩ => by show (y 0).val = 0 + (y 0).val; omega
      | ⟨1, _⟩ => by show (y 1).val = 0 + (y 1).val; omega),
    extractStridedSlice_apply ![0, 2048] _ Facts₀.slices_S128x4096_o0_2048_S128x1024 y (ix2 (n0 := 128) (n1 := 4096) (y 0) (gcol 2048 (by norm_num) (y 1))) (fun a => match a with
      | ⟨0, _⟩ => by show (y 0).val = 0 + (y 0).val; omega
      | ⟨1, _⟩ => by show 2048 + (y 1).val = 2048 + (y 1).val; rfl),
    pay1_apply, pay1_apply, pay1_apply]
  rfl

/-- The store into the hidden-state window, at an index of the tile: the new hidden state of the tile's rows. -/
theorem pay3_apply (x0 x1 : Vec Ideal S128x1024 .f32) (w0 w1 : Vec Ideal S1024x4096 .bf16) (bb : Vec Ideal S1x4096 .f32)
    (cp : Vec Ideal S128x1024 .f32) (y : S128x1024.Idx) :
    k0_pay3 (F := Ideal) x0 x1 w0 w1 bb cp y = hidOut (R := 128) x0 x1 cp w0 w1 (biasOf bb) y := by
  unfold k0_pay3
  show FloatOps.mulf (FloatOps.logistic (extractStridedSlice S128x1024 ![0, 3072] (k0_pay1 (F := Ideal) x0 x1 w0 w1 bb) Facts₀.slices_S128x4096_o0_3072_S128x1024 y))
      (FloatOps.tanh (k0_pay2 (F := Ideal) x0 x1 w0 w1 bb cp y)) = _
  rw [extractStridedSlice_apply ![0, 3072] _ Facts₀.slices_S128x4096_o0_3072_S128x1024 y (ix2 (n0 := 128) (n1 := 4096) (y 0) (gcol 3072 (by norm_num) (y 1))) (fun a => match a with
      | ⟨0, _⟩ => by show (y 0).val = 0 + (y 0).val; omega
      | ⟨1, _⟩ => by show 3072 + (y 1).val = 3072 + (y 1).val; rfl),
    pay1_apply, pay2_apply]
  rfl

/-! ## The windows' blocks as rows of the arrays -/

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 64 tiles: a row window's block index is `(t, 0)`, a resident window's `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Row `p` of tile `t` is row `128·t + p` of the arrays. -/
def rowAt (t : Fin cfg0.N) (p : Fin 128) : Fin 8192 :=
  ⟨t.val * 128 + p.val, by have h1 := t.isLt; have h2 : cfg0.N = 64 := N_0; have h3 := p.isLt; omega⟩

theorem blk0_read (c : Dev nD) (t : Fin cfg0.N) (p : Fin 128) (k : Fin 1024) :
    iblk m c 0 t (ix2 (n0 := 128) (n1 := 1024) p k) = V m c main_arg0 (ix2 (n0 := 8192) (n1 := 1024) (rowAt t p) k) := by
  show V m c main_arg0 (((cfg0.win 0).blk t).view.emb (ix2 (n0 := 128) (n1 := 1024) p k)) = _
  refine congrArg (V m c main_arg0) (funext fun a => Fin.ext ?_)
  obtain ⟨e00, e01, e10, e11, e20, e21, -⟩ := idx_facts t
  match a with
  | ⟨0, _⟩ => show win0_0.index t (0 : Fin 2) * 128 + 1 * p.val = t.val * 128 + p.val; omega
  | ⟨1, _⟩ => show win0_0.index t (1 : Fin 2) * 1024 + 1 * k.val = k.val; omega
theorem blk1_read (c : Dev nD) (t : Fin cfg0.N) (p : Fin 128) (k : Fin 1024) :
    iblk m c 1 t (ix2 (n0 := 128) (n1 := 1024) p k) = V m c main_arg1 (ix2 (n0 := 8192) (n1 := 1024) (rowAt t p) k) := by
  show V m c main_arg1 (((cfg0.win 1).blk t).view.emb (ix2 (n0 := 128) (n1 := 1024) p k)) = _
  refine congrArg (V m c main_arg1) (funext fun a => Fin.ext ?_)
  obtain ⟨e00, e01, e10, e11, e20, e21, -⟩ := idx_facts t
  match a with
  | ⟨0, _⟩ => show win0_1.index t (0 : Fin 2) * 128 + 1 * p.val = t.val * 128 + p.val; omega
  | ⟨1, _⟩ => show win0_1.index t (1 : Fin 2) * 1024 + 1 * k.val = k.val; omega
theorem blk2_read (c : Dev nD) (t : Fin cfg0.N) (p : Fin 128) (k : Fin 1024) :
    iblk m c 2 t (ix2 (n0 := 128) (n1 := 1024) p k) = V m c main_arg2 (ix2 (n0 := 8192) (n1 := 1024) (rowAt t p) k) := by
  show V m c main_arg2 (((cfg0.win 2).blk t).view.emb (ix2 (n0 := 128) (n1 := 1024) p k)) = _
  refine congrArg (V m c main_arg2) (funext fun a => Fin.ext ?_)
  obtain ⟨e00, e01, e10, e11, e20, e21, -⟩ := idx_facts t
  match a with
  | ⟨0, _⟩ => show win0_2.index t (0 : Fin 2) * 128 + 1 * p.val = t.val * 128 + p.val; omega
  | ⟨1, _⟩ => show win0_2.index t (1 : Fin 2) * 1024 + 1 * k.val = k.val; omega
theorem blk3_read (c : Dev nD) (t : Fin cfg0.N) (y : S1024x4096.Idx) : iblk m c 3 t y = V m c main_v5 y := by
  show V m c main_v5 (((cfg0.win 3).blk t).view.emb y) = _
  refine congrArg (V m c main_v5) (funext fun a => Fin.ext ?_)
  obtain ⟨-, -, -, -, -, -, e30, e31, e40, e41, e50, e51, -⟩ := idx_facts t
  match a with
  | ⟨0, _⟩ => show win0_3.index t (0 : Fin 2) * 1024 + 1 * (y 0).val = (y 0).val; omega
  | ⟨1, _⟩ => show win0_3.index t (1 : Fin 2) * 4096 + 1 * (y 1).val = (y 1).val; omega
theorem blk4_read (c : Dev nD) (t : Fin cfg0.N) (y : S1024x4096.Idx) : iblk m c 4 t y = V m c main_v11 y := by
  show V m c main_v11 (((cfg0.win 4).blk t).view.emb y) = _
  refine congrArg (V m c main_v11) (funext fun a => Fin.ext ?_)
  obtain ⟨-, -, -, -, -, -, e30, e31, e40, e41, e50, e51, -⟩ := idx_facts t
  match a with
  | ⟨0, _⟩ => show win0_4.index t (0 : Fin 2) * 1024 + 1 * (y 0).val = (y 0).val; omega
  | ⟨1, _⟩ => show win0_4.index t (1 : Fin 2) * 4096 + 1 * (y 1).val = (y 1).val; omega
theorem blk5_read (c : Dev nD) (t : Fin cfg0.N) (y : S1x4096.Idx) : iblk m c 5 t y = V m c main_v13 y := by
  show V m c main_v13 (((cfg0.win 5).blk t).view.emb y) = _
  refine congrArg (V m c main_v13) (funext fun a => Fin.ext ?_)
  obtain ⟨-, -, -, -, -, -, e30, e31, e40, e41, e50, e51, -⟩ := idx_facts t
  match a with
  | ⟨0, _⟩ => show win0_5.index t (0 : Fin 2) * 1 + 1 * (y 0).val = (y 0).val; omega
  | ⟨1, _⟩ => show win0_5.index t (1 : Fin 2) * 4096 + 1 * (y 1).val = (y 1).val; omega

/-! ## The two result arrays -/

/-- The fused bias as the call finds it, as a function of the column. -/
abbrev biasK (c : Dev nD) : Fin 4096 → EReal := fun q => V m c main_v13 (ix2 (n0 := 1) (n1 := 4096) 0 q)

/-- The new cell state of all 8192 rows, of the arrays as the call finds them. -/
def cellArr (c : Dev nD) : S8192x1024.Idx → EReal :=
  cellOut (R := 8192) (V m c main_arg0) (V m c main_arg1) (V m c main_arg2) (V m c main_v5) (V m c main_v11) (biasK m c)

/-- The new hidden state of all 8192 rows. -/
def hidArr (c : Dev nD) : S8192x1024.Idx → EReal :=
  hidOut (R := 8192) (V m c main_arg0) (V m c main_arg1) (V m c main_arg2) (V m c main_v5) (V m c main_v11) (biasK m c)

/-- What tile `t` writes back to the cell-state array: rows `128·t …` of the arrays' new cell state. -/
theorem flushed7_eq (c : Dev nD) (t : Fin cfg0.N) :
    (dats m 0 c).flushed 7 t = ((cfg0.win 7).blk t).view.read (Elt Ideal) (cellArr m c) := by
  show (cfg0.win 7).cut (grid0.coords t) ((dats m 0 c).after 7 t) = _
  rw [after_7]
  unfold cNew
  rw [View.canon_unit_zero hz]
  simp only [View.ld_unit_zero (S := S128x1024) hz, View.ld_unit_zero (S := S1024x4096) hz, View.ld_unit_zero (S := S1x4096) hz]
  funext y
  show k0_pay2 (F := Ideal) (iblk m c 0 t) (iblk m c 1 t) (iblk m c 3 t) (iblk m c 4 t) (iblk m c 5 t) (iblk m c 2 t) y
    = cellArr m c (((cfg0.win 7).blk t).view.emb y)
  have hy : y = ix2 (n0 := 128) (n1 := 1024) (y 0) (y 1) := eq_ix2 y
  have he : ((cfg0.win 7).blk t).view.emb y = ix2 (n0 := 8192) (n1 := 1024) (rowAt t (y 0)) (y 1) := by
    funext a; apply Fin.ext
    obtain ⟨-, -, -, -, -, -, -, -, -, -, -, -, e60, e61, e70, e71⟩ := idx_facts t
    match a with
    | ⟨0, _⟩ => show win0_7.index t (0 : Fin 2) * 128 + 1 * (y 0).val = t.val * 128 + (y 0).val; omega
    | ⟨1, _⟩ => show win0_7.index t (1 : Fin 2) * 1024 + 1 * (y 1).val = (y 1).val; omega
  rw [he]
  refine (pay2_apply (iblk m c 0 t) (iblk m c 1 t) (iblk m c 3 t) (iblk m c 4 t) (iblk m c 5 t) (iblk m c 2 t) y).trans ?_
  refine (congrArg (cellOut (R := 128) (iblk m c 0 t) (iblk m c 1 t) (iblk m c 2 t) (iblk m c 3 t) (iblk m c 4 t) (biasOf (iblk m c 5 t))) hy).trans ?_
  exact cellOut_rows (rowAt t) (V m c main_arg0) (V m c main_arg1) (V m c main_arg2) (iblk m c 0 t) (iblk m c 1 t) (iblk m c 2 t)
    (blk0_read m c t) (blk1_read m c t) (blk2_read m c t)
    (V m c main_v5) (V m c main_v11) (iblk m c 3 t) (iblk m c 4 t) (biasK m c) (biasOf (iblk m c 5 t))
    (blk3_read m c t) (blk4_read m c t) (fun q => blk5_read m c t _) (y 0) (y 1)

/-- An index of the array is in tile `t`'s block iff each coordinate is in the block's range on its axis. -/
theorem mem_blk7 (t : Fin cfg0.N) (i : S8192x1024.Idx) :
    i ∈ ((cfg0.win 7).blk t).view.set ↔ ∀ a : Fin 2, win0_7.index t a * S128x1024.size a ≤ (i a).val ∧ (i a).val < win0_7.index t a * S128x1024.size a + S128x1024.size a := by
  show i ∈ ((View.whole main_v14_1).slice (win0_7.rect t)).set ↔ _
  rw [View.set_slice_whole, Rect.mem_set_unit]
  exact Iff.rfl

/-- The 64 tiles cover the 8192 rows: row `r` is in tile `r / 128`. -/
theorem cover7 (i : S8192x1024.Idx) : ∃ t : Fin cfg0.N, (cfg0.win 7).flush t = true ∧ i ∈ ((cfg0.win 7).blk t).view.set := by
  have hi0 : (i 0).val < 8192 := (i 0).isLt
  have hi1 : (i 1).val < 1024 := (i 1).isLt
  have hN : cfg0.N = 64 := N_0
  obtain ⟨t, ht⟩ : ∃ t : Fin cfg0.N, t.val = (i 0).val / 128 := ⟨⟨(i 0).val / 128, by omega⟩, rfl⟩
  refine ⟨t, flush0_7 t, ?_⟩
  rw [mem_blk7]
  obtain ⟨-, -, -, -, -, -, -, -, -, -, -, -, e60, e61, e70, e71⟩ := idx_facts t
  intro a
  match a with
  | ⟨0, _⟩ => show win0_7.index t (0 : Fin 2) * 128 ≤ (i 0).val ∧ (i 0).val < win0_7.index t (0 : Fin 2) * 128 + 128; omega
  | ⟨1, _⟩ => show win0_7.index t (1 : Fin 2) * 1024 ≤ (i 1).val ∧ (i 1).val < win0_7.index t (1 : Fin 2) * 1024 + 1024; omega

/-- The array after the run. -/
theorem final7 (c : Dev nD) : (dats m 0 c).arrAt 7 cfg0.N = cellArr m c :=
  (dats m 0 c).arrAt_eq_of_cover 7 (cellArr m c) (fun t _ => flushed7_eq m c t) cover7

/-- What tile `t` writes back to the hidden-state array: rows `128·t …` of the arrays' new hidden state. -/
theorem flushed6_eq (c : Dev nD) (t : Fin cfg0.N) :
    (dats m 0 c).flushed 6 t = ((cfg0.win 6).blk t).view.read (Elt Ideal) (hidArr m c) := by
  show (cfg0.win 6).cut (grid0.coords t) ((dats m 0 c).after 6 t) = _
  rw [after_6]
  unfold hNew
  rw [View.canon_unit_zero hz]
  simp only [View.ld_unit_zero (S := S128x1024) hz, View.ld_unit_zero (S := S1024x4096) hz, View.ld_unit_zero (S := S1x4096) hz]
  funext y
  show k0_pay3 (F := Ideal) (iblk m c 0 t) (iblk m c 1 t) (iblk m c 3 t) (iblk m c 4 t) (iblk m c 5 t) (iblk m c 2 t) y
    = hidArr m c (((cfg0.win 6).blk t).view.emb y)
  have hy : y = ix2 (n0 := 128) (n1 := 1024) (y 0) (y 1) := eq_ix2 y
  have he : ((cfg0.win 6).blk t).view.emb y = ix2 (n0 := 8192) (n1 := 1024) (rowAt t (y 0)) (y 1) := by
    funext a; apply Fin.ext
    obtain ⟨-, -, -, -, -, -, -, -, -, -, -, -, e60, e61, e70, e71⟩ := idx_facts t
    match a with
    | ⟨0, _⟩ => show win0_6.index t (0 : Fin 2) * 128 + 1 * (y 0).val = t.val * 128 + (y 0).val; omega
    | ⟨1, _⟩ => show win0_6.index t (1 : Fin 2) * 1024 + 1 * (y 1).val = (y 1).val; omega
  rw [he]
  refine (pay3_apply (iblk m c 0 t) (iblk m c 1 t) (iblk m c 3 t) (iblk m c 4 t) (iblk m c 5 t) (iblk m c 2 t) y).trans ?_
  refine (congrArg (hidOut (R := 128) (iblk m c 0 t) (iblk m c 1 t) (iblk m c 2 t) (iblk m c 3 t) (iblk m c 4 t) (biasOf (iblk m c 5 t))) hy).trans ?_
  exact hidOut_rows (rowAt t) (V m c main_arg0) (V m c main_arg1) (V m c main_arg2) (iblk m c 0 t) (iblk m c 1 t) (iblk m c 2 t)
    (blk0_read m c t) (blk1_read m c t) (blk2_read m c t)
    (V m c main_v5) (V m c main_v11) (iblk m c 3 t) (iblk m c 4 t) (biasK m c) (biasOf (iblk m c 5 t))
    (blk3_read m c t) (blk4_read m c t) (fun q => blk5_read m c t _) (y 0) (y 1)

/-- An index of the array is in tile `t`'s block iff each coordinate is in the block's range on its axis. -/
theorem mem_blk6 (t : Fin cfg0.N) (i : S8192x1024.Idx) :
    i ∈ ((cfg0.win 6).blk t).view.set ↔ ∀ a : Fin 2, win0_6.index t a * S128x1024.size a ≤ (i a).val ∧ (i a).val < win0_6.index t a * S128x1024.size a + S128x1024.size a := by
  show i ∈ ((View.whole main_v14_0).slice (win0_6.rect t)).set ↔ _
  rw [View.set_slice_whole, Rect.mem_set_unit]
  exact Iff.rfl

/-- The 64 tiles cover the 8192 rows: row `r` is in tile `r / 128`. -/
theorem cover6 (i : S8192x1024.Idx) : ∃ t : Fin cfg0.N, (cfg0.win 6).flush t = true ∧ i ∈ ((cfg0.win 6).blk t).view.set := by
  have hi0 : (i 0).val < 8192 := (i 0).isLt
  have hi1 : (i 1).val < 1024 := (i 1).isLt
  have hN : cfg0.N = 64 := N_0
  obtain ⟨t, ht⟩ : ∃ t : Fin cfg0.N, t.val = (i 0).val / 128 := ⟨⟨(i 0).val / 128, by omega⟩, rfl⟩
  refine ⟨t, flush0_6 t, ?_⟩
  rw [mem_blk6]
  obtain ⟨-, -, -, -, -, -, -, -, -, -, -, -, e60, e61, e70, e71⟩ := idx_facts t
  intro a
  match a with
  | ⟨0, _⟩ => show win0_6.index t (0 : Fin 2) * 128 ≤ (i 0).val ∧ (i 0).val < win0_6.index t (0 : Fin 2) * 128 + 128; omega
  | ⟨1, _⟩ => show win0_6.index t (1 : Fin 2) * 1024 ≤ (i 1).val ∧ (i 1).val < win0_6.index t (1 : Fin 2) * 1024 + 1024; omega

/-- The array after the run. -/
theorem final6 (c : Dev nD) : (dats m 0 c).arrAt 6 cfg0.N = hidArr m c :=
  (dats m 0 c).arrAt_eq_of_cover 6 (hidArr m c) (fun t _ => flushed6_eq m c t) cover6

/-! ## The run, read -/

/-- The run re-posted: the two results at the new hidden and cell states of the arrays as the call finds them, the arguments
    as launched. -/
theorem run : θ_run defs (onTc (τ := τ) (main (F := Ideal))) ⟨m, fun _ => 0, ρ⟩ fun r => ∀ c : Dev nD,
      r.2.mem ((c.tc : Thread nD τ).loc main_v14_0) = hidArr m c
      ∧ r.2.mem ((c.tc : Thread nD τ).loc main_v14_1) = cellArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c => ⟨((h c).1 6).trans (final6 m c), ((h c).1 7).trans (final7 m c), kept m r h c⟩) (run_main m ρ)

end Cert.KernelIdeal.CellValue

end
-- ==== Proof.RefCell.lean ====
/-
  The reference computes the row-wise cell.

  Its two results are, index by index, the new hidden and cell states of the row-wise specification, at these fused
  operands: the transpose of the four input-side gate matrices stacked, the transpose of the four hidden-side ones stacked,
  and the four bias vectors joined. The reference spells the logistic function as one over one plus the exponential of the
  negation, and takes the four gates as four column slices of the pre-activations.
-/
import proofs.«143105_j29850022707330_1_alg».proof.Proof.Gen.ReferenceIdeal.Read
import proofs.«143105_j29850022707330_1_alg».proof.Proof.CellSpec

noncomputable section

namespace Cert.ReferenceIdeal.Cell

open Cert.ReferenceIdeal Cert.ReferenceIdeal.Gen Cert.ReferenceIdeal.Read Idealize.ShloMosaic Idealize.ShloMosaic.ValueIdx Cert.CellSpec

/-! ## The printed index functions, as coordinates -/

theorem lidx4 (j : S8192x4096.Idx) (k : Fin 1024) : lidx_main_v4 j k = ix2 (n0 := 8192) (n1 := 1024) (j 0) k :=
  funext fun a => by match a with | ⟨0, _⟩ => rfl | ⟨1, _⟩ => rfl
theorem ridx4 (j : S8192x4096.Idx) (k : Fin 1024) : ridx_main_v4 j k = ix2 (n0 := 1024) (n1 := 4096) k (j 1) :=
  funext fun a => by match a with | ⟨0, _⟩ => rfl | ⟨1, _⟩ => rfl
theorem lidx6 (j : S8192x4096.Idx) (k : Fin 1024) : lidx_main_v6 j k = ix2 (n0 := 8192) (n1 := 1024) (j 0) k :=
  funext fun a => by match a with | ⟨0, _⟩ => rfl | ⟨1, _⟩ => rfl
theorem ridx6 (j : S8192x4096.Idx) (k : Fin 1024) : ridx_main_v6 j k = ix2 (n0 := 1024) (n1 := 4096) k (j 1) :=
  funext fun a => by match a with | ⟨0, _⟩ => rfl | ⟨1, _⟩ => rfl
theorem bidx (j : S8192x4096.Idx) : idx_main_v8 (idx_main_v9 j) = ix1 (n := 4096) (j 1) :=
  funext fun a => by match a with | ⟨0, _⟩ => rfl

/-! ## The fused operands, as the reference forms them -/

/-- The input-side weights: the four gate matrices stacked, transposed. -/
abbrev wxR (x3 x6 x9 x12 : (⟨S1024x1024, .f32⟩ : BufTy).Contents (Elt Ideal)) : SW.Idx → EReal := val_main_v3 (F := Ideal) x3 x6 x9 x12
/-- The hidden-side weights. -/
abbrev whR (x5 x8 x11 x14 : (⟨S1024x1024, .f32⟩ : BufTy).Contents (Elt Ideal)) : SW.Idx → EReal := val_main_v5 (F := Ideal) x5 x8 x11 x14
/-- The bias: the four gate biases joined. -/
abbrev bR (x4 x7 x10 x13 : (⟨S1024, .f32⟩ : BufTy).Contents (Elt Ideal)) : Fin 4096 → EReal := fun q => val_main_v2 (F := Ideal) x4 x7 x10 x13 (ix1 q)

/-! ## The pre-activations -/

/-- Entry `j` of the reference's pre-activation array is the specification's, of row `j 0` at column `j 1`. -/
theorem pre_eq (x0 x1 : (⟨S8192x1024, .f32⟩ : BufTy).Contents (Elt Ideal)) (x3 : (⟨S1024x1024, .f32⟩ : BufTy).Contents (Elt Ideal)) (x4 : (⟨S1024, .f32⟩ : BufTy).Contents (Elt Ideal)) (x5 x6 : (⟨S1024x1024, .f32⟩ : BufTy).Contents (Elt Ideal)) (x7 : (⟨S1024, .f32⟩ : BufTy).Contents (Elt Ideal)) (x8 x9 : (⟨S1024x1024, .f32⟩ : BufTy).Contents (Elt Ideal)) (x10 : (⟨S1024, .f32⟩ : BufTy).Contents (Elt Ideal)) (x11 x12 : (⟨S1024x1024, .f32⟩ : BufTy).Contents (Elt Ideal)) (x13 : (⟨S1024, .f32⟩ : BufTy).Contents (Elt Ideal)) (x14 : (⟨S1024x1024, .f32⟩ : BufTy).Contents (Elt Ideal)) (j : S8192x4096.Idx) :
    val_main_v10 (F := Ideal) x0 x1 x3 x4 x5 x6 x7 x8 x9 x10 x11 x12 x13 x14 j
      = zrow (rowOf (R := 8192) x0 (j 0)) (rowOf (R := 8192) x1 (j 0)) (wxR x3 x6 x9 x12) (whR x5 x8 x11 x14) (bR x4 x7 x10 x13) (j 1) := by
  rw [val_main_v10_apply, val_main_v7_apply, val_main_v4_apply, val_main_v6_apply, val_main_v9_apply, val_main_v8_apply]
  simp only [lidx4, ridx4, lidx6, ridx6, bidx]
  rfl

/-! ## The two results -/

/-- The reference's second result is the new cell state. -/
theorem cell_eq (x0 x1 x2 : (⟨S8192x1024, .f32⟩ : BufTy).Contents (Elt Ideal)) (x3 : (⟨S1024x1024, .f32⟩ : BufTy).Contents (Elt Ideal)) (x4 : (⟨S1024, .f32⟩ : BufTy).Contents (Elt Ideal)) (x5 x6 : (⟨S1024x1024, .f32⟩ : BufTy).Contents (Elt Ideal)) (x7 : (⟨S1024, .f32⟩ : BufTy).Contents (Elt Ideal)) (x8 x9 : (⟨S1024x1024, .f32⟩ : BufTy).Contents (Elt Ideal)) (x10 : (⟨S1024, .f32⟩ : BufTy).Contents (Elt Ideal)) (x11 x12 : (⟨S1024x1024, .f32⟩ : BufTy).Contents (Elt Ideal)) (x13 : (⟨S1024, .f32⟩ : BufTy).Contents (Elt Ideal)) (x14 : (⟨S1024x1024, .f32⟩ : BufTy).Contents (Elt Ideal)) :
    val_main_v36 (F := Ideal) x0 x1 x2 x3 x4 x5 x6 x7 x8 x9 x10 x11 x12 x13 x14
      = cellOut (R := 8192) x0 x1 x2 (wxR x3 x6 x9 x12) (whR x5 x8 x11 x14) (bR x4 x7 x10 x13) := by
  funext i
  simp only [val_main_v36_apply, val_main_v34_apply, val_main_v35_apply, val_main_v26_apply, val_main_v25_apply, val_main_cst_2_apply,
    val_main_v24_apply, val_main_v23_apply, val_main_cst_1_apply, val_main_v22_apply, val_main_v21_apply, val_main_v12_apply,
    val_main_v20_apply, val_main_v19_apply, val_main_cst_0_apply, val_main_v18_apply, val_main_v17_apply, val_main_cst_apply,
    val_main_v16_apply, val_main_v15_apply, val_main_v11_apply, val_main_v27_apply, val_main_v13_apply, pre_eq]
  simp only [Ideal.addf_def, Ideal.mulf_def, Ideal.hostDivf_def, Ideal.hostUnary_exp_def, Ideal.hostNegf_def, Ideal.negf_def,
    Ideal.hostUnary_tanh_def, Ideal.ofBits_def, logistic_spelt]
  rfl

/-- The reference's first result is the new hidden state. -/
theorem hid_eq (x0 x1 x2 : (⟨S8192x1024, .f32⟩ : BufTy).Contents (Elt Ideal)) (x3 : (⟨S1024x1024, .f32⟩ : BufTy).Contents (Elt Ideal)) (x4 : (⟨S1024, .f32⟩ : BufTy).Contents (Elt Ideal)) (x5 x6 : (⟨S1024x1024, .f32⟩ : BufTy).Contents (Elt Ideal)) (x7 : (⟨S1024, .f32⟩ : BufTy).Contents (Elt Ideal)) (x8 x9 : (⟨S1024x1024, .f32⟩ : BufTy).Contents (Elt Ideal)) (x10 : (⟨S1024, .f32⟩ : BufTy).Contents (Elt Ideal)) (x11 x12 : (⟨S1024x1024, .f32⟩ : BufTy).Contents (Elt Ideal)) (x13 : (⟨S1024, .f32⟩ : BufTy).Contents (Elt Ideal)) (x14 : (⟨S1024x1024, .f32⟩ : BufTy).Contents (Elt Ideal)) :
    val_main_v38 (F := Ideal) x0 x1 x2 x3 x4 x5 x6 x7 x8 x9 x10 x11 x12 x13 x14
      = hidOut (R := 8192) x0 x1 x2 (wxR x3 x6 x9 x12) (whR x5 x8 x11 x14) (bR x4 x7 x10 x13) := by
  funext i
  simp only [val_main_v38_apply, val_main_v33_apply, val_main_v32_apply, val_main_cst_4_apply, val_main_v31_apply, val_main_v30_apply,
    val_main_cst_3_apply, val_main_v29_apply, val_main_v28_apply, val_main_v14_apply, val_main_v37_apply, pre_eq]
  rw [cell_eq]
  simp only [Ideal.addf_def, Ideal.mulf_def, Ideal.hostDivf_def, Ideal.hostUnary_exp_def, Ideal.hostNegf_def, Ideal.negf_def,
    Ideal.hostUnary_tanh_def, Ideal.ofBits_def, logistic_spelt]
  rfl

end Cert.ReferenceIdeal.Cell

end
-- ==== Proof.LibConcatFour.lean ====
/-
  A concatenation of FOUR pieces of one shape read at an index, and the fact a fused-gate layer rests on: four square
  matrices transposed and set side by side are the transpose of the four stacked.

  Along the joined axis, of extent `K` in each piece, position `c` falls in piece `c / K` at `c % K`; off the axis the
  coordinates are kept. For square pieces `a₀ … a₃` of side `n`: entry `(k, q)` of `[a₀ᵀ | a₁ᵀ | a₂ᵀ | a₃ᵀ]` is
  `a_{q / n} (q % n, k)`, and so is entry `(k, q)` of the transpose of the `4n × n` stack, whose entry `(q, k)` it is.
-/
import Idealize.ShloMosaic.Lib.Pipeline.Value
import Idealize.ShloMosaic.Lib.ValueIdx

noncomputable section

namespace Idealize.ShloMosaic.ConcatFour

open Idealize.ShloMosaic Idealize.ShloMosaic.ValueIdx

variable {α : Type}

/-- Four pieces of one shape, joined along axis `a` where each has extent `K`, read at `j`: piece `(j a) / K` at the index
    with `j`'s coordinates off the axis and `(j a) % K` on it. -/
theorem concatenate4_apply {t s : Shape} (a : Fin t.rank) (u : Fin 4 → s.Idx → α)
    (h : Shape.Concatenates [s, s, s, s] t a)
    (hr : s.rank = t.rank) (K : Nat) (hK : s.size (a.cast hr.symm) = K) (j : t.Idx) (n : Fin 4) (hn : (j a).val / K = n.val)
    (i : s.Idx) (hia : (i (a.cast hr.symm)).val = (j a).val % K) (hi : ∀ b : Fin s.rank, b.cast hr ≠ a → (i b).val = (j (b.cast hr)).val) :
    concatenate t a [⟨s, u 0⟩, ⟨s, u 1⟩, ⟨s, u 2⟩, ⟨s, u 3⟩] h j = u n i :=
  concatenate_ofFn_apply a u h hr K hK j n hn i hia hi

end Idealize.ShloMosaic.ConcatFour

end
-- ==== Proof.Fused.lean ====
/-
  The fused operands the call finds are the reference's.

  The kernel's program transposes each gate matrix and sets the four side by side; the reference stacks the four and
  transposes the stack. Entry `(k, q)` of either is entry `(q mod 1024, k)` of gate matrix `q / 1024`; narrowing to bf16 is
  the identity on the extended reals. The bias row [1, 4096] the call finds is the four gate biases joined, reshaped; the
  reference reads the same joined vector by broadcasting.
-/
import proofs.«143105_j29850022707330_1_alg».proof.Proof.KernelIdealFrame
import proofs.«143105_j29850022707330_1_alg».proof.Proof.Gen.ReferenceIdeal.Read
import proofs.«143105_j29850022707330_1_alg».proof.Proof.LibConcatFour
import Idealize.ShloMosaic.Lib.StableHlo.Run
import Idealize.ShloMosaic.Lib.Pipeline.Value
import Idealize.ShloMosaic.Lib.ValueIdx

set_option maxRecDepth 16384

noncomputable section

namespace Cert.KernelIdeal.Fused

open Cert.KernelIdeal Cert.KernelIdeal.Gen Cert.KernelIdeal.Cell
open Idealize.ShloMosaic Idealize.ShloMosaic.TcCoe Idealize.SL.Sem Idealize.ShloMosaic.StableHlo Idealize.ShloMosaic.ValueIdx
open Idealize.ShloMosaic.ConcatFour

/-! ## Four transposes side by side are the transpose of the stack -/

abbrev SQ : Shape := ⟨2, ![1024, 1024]⟩
abbrev WIDE : Shape := ⟨2, ![1024, 4096]⟩
abbrev TALL : Shape := ⟨2, ![4096, 1024]⟩

theorem transposes_joined {α : Type} (a0 a1 a2 a3 : SQ.Idx → α) (htr : SQ.Transposes [1, 0] SQ)
    (hc1 : Shape.Concatenates [SQ, SQ, SQ, SQ] WIDE 1) (hc0 : Shape.Concatenates [SQ, SQ, SQ, SQ] TALL 0)
    (htr' : TALL.Transposes [1, 0] WIDE) (i : WIDE.Idx) :
    concatenate WIDE 1 [⟨SQ, transpose SQ [1, 0] a0 htr⟩, ⟨SQ, transpose SQ [1, 0] a1 htr⟩, ⟨SQ, transpose SQ [1, 0] a2 htr⟩, ⟨SQ, transpose SQ [1, 0] a3 htr⟩] hc1 i
      = transpose WIDE [1, 0] (concatenate TALL 0 [⟨SQ, a0⟩, ⟨SQ, a1⟩, ⟨SQ, a2⟩, ⟨SQ, a3⟩] hc0) htr' i := by
  have h1 : (i 1).val < 4096 := (i 1).isLt
  obtain ⟨n, hn⟩ : ∃ n : Fin 4, (i 1).val / 1024 = n.val := ⟨⟨(i 1).val / 1024, by omega⟩, rfl⟩
  let r : Fin 1024 := ⟨(i 1).val % 1024, Nat.mod_lt _ (by norm_num)⟩
  -- the left side: piece `n` of the side-by-side join at `(i 0, r)`, a transpose, so the gate matrix at `(r, i 0)`
  have L : concatenate WIDE 1 [⟨SQ, transpose SQ [1, 0] a0 htr⟩, ⟨SQ, transpose SQ [1, 0] a1 htr⟩, ⟨SQ, transpose SQ [1, 0] a2 htr⟩, ⟨SQ, transpose SQ [1, 0] a3 htr⟩] hc1 i
      = (![a0, a1, a2, a3] n) (ix2 (n0 := 1024) (n1 := 1024) r (i 0)) :=
    (concatenate4_apply (t := WIDE) (s := SQ) 1 (fun k => transpose SQ [1, 0] (![a0, a1, a2, a3] k) htr) hc1 rfl 1024 rfl i n hn
      (ix2 (n0 := 1024) (n1 := 1024) (i 0) r) rfl (fun b hb => by
        match b with
        | ⟨0, _⟩ => rfl
        | ⟨1, _⟩ => exact absurd rfl hb)).trans
    (transpose_apply [1, 0] (![a0, a1, a2, a3] n) htr (ix2 (n0 := 1024) (n1 := 1024) (i 0) r) (ix2 (n0 := 1024) (n1 := 1024) r (i 0)) (fun b => match b with
        | ⟨0, _⟩ => rfl
        | ⟨1, _⟩ => rfl))
  -- the right side: the stack at `(i 1, i 0)`, which is piece `n` at `(r, i 0)`
  have R : transpose WIDE [1, 0] (concatenate TALL 0 [⟨SQ, a0⟩, ⟨SQ, a1⟩, ⟨SQ, a2⟩, ⟨SQ, a3⟩] hc0) htr' i
      = (![a0, a1, a2, a3] n) (ix2 (n0 := 1024) (n1 := 1024) r (i 0)) :=
    (transpose_apply [1, 0] (concatenate TALL 0 [⟨SQ, a0⟩, ⟨SQ, a1⟩, ⟨SQ, a2⟩, ⟨SQ, a3⟩] hc0) htr' i (ix2 (n0 := 4096) (n1 := 1024) (i 1) (i 0)) (fun b => match b with
        | ⟨0, _⟩ => rfl
        | ⟨1, _⟩ => rfl)).trans
    (concatenate4_apply (t := TALL) (s := SQ) 0 ![a0, a1, a2, a3] hc0 rfl 1024 rfl (ix2 (n0 := 4096) (n1 := 1024) (i 1) (i 0)) n hn
      (ix2 (n0 := 1024) (n1 := 1024) r (i 0)) rfl (fun b hb => by
        match b with
        | ⟨0, _⟩ => exact absurd rfl hb
        | ⟨1, _⟩ => rfl))
  exact L.trans R.symm

/-! ## The operands the call finds -/

variable (m : (ℓ : Loc nD τ sig) → Buf (Elt Ideal) ℓ)

/-- The input-side fused weights the call finds, entry by entry, are the reference's. -/
theorem wx_join (c : Dev nD) (i : S1024x4096.Idx) :
    V m c main_v5 i = Cert.ReferenceIdeal.Read.val_main_v3 (F := Ideal) (m ((c : Thread nD τ).loc main_arg3)) (m ((c : Thread nD τ).loc main_arg6)) (m ((c : Thread nD τ).loc main_arg9)) (m ((c : Thread nD τ).loc main_arg12)) i := by
  have e : (V m c main_v5 : S1024x4096.Idx → EReal)
      = truncf (F := Ideal) .bf16 (concatenate (α := Ideal .f32) S1024x4096 1 [⟨S1024x1024, transpose S1024x1024 [1, 0] (m ((c : Thread nD τ).loc main_arg6)) Facts₀.transposes_S1024x1024_S1024x1024_1_0⟩,
          ⟨S1024x1024, transpose S1024x1024 [1, 0] (m ((c : Thread nD τ).loc main_arg3)) Facts₀.transposes_S1024x1024_S1024x1024_1_0⟩,
          ⟨S1024x1024, transpose S1024x1024 [1, 0] (m ((c : Thread nD τ).loc main_arg9)) Facts₀.transposes_S1024x1024_S1024x1024_1_0⟩,
          ⟨S1024x1024, transpose S1024x1024 [1, 0] (m ((c : Thread nD τ).loc main_arg12)) Facts₀.transposes_S1024x1024_S1024x1024_1_0⟩]
          Facts₀.concatenates_S1024x1024_S1024x1024_S1024x1024_S1024x1024_S1024x4096_d1) Facts₀.bitsLt_bf16_f32 := by
    dsimp only [V, hostOps0]; after_results; rfl
  rw [e]
  unfold Cert.ReferenceIdeal.Read.val_main_v3 Cert.ReferenceIdeal.Read.val_main_v0
  simp only [truncf, Ideal.truncf_def]
  exact transposes_joined _ _ _ _ _ _ _ _ i

/-- The hidden-side fused weights likewise. -/
theorem wh_join (c : Dev nD) (i : S1024x4096.Idx) :
    V m c main_v11 i = Cert.ReferenceIdeal.Read.val_main_v5 (F := Ideal) (m ((c : Thread nD τ).loc main_arg5)) (m ((c : Thread nD τ).loc main_arg8)) (m ((c : Thread nD τ).loc main_arg11)) (m ((c : Thread nD τ).loc main_arg14)) i := by
  have e : (V m c main_v11 : S1024x4096.Idx → EReal)
      = truncf (F := Ideal) .bf16 (concatenate (α := Ideal .f32) S1024x4096 1 [⟨S1024x1024, transpose S1024x1024 [1, 0] (m ((c : Thread nD τ).loc main_arg8)) Facts₀.transposes_S1024x1024_S1024x1024_1_0⟩,
          ⟨S1024x1024, transpose S1024x1024 [1, 0] (m ((c : Thread nD τ).loc main_arg5)) Facts₀.transposes_S1024x1024_S1024x1024_1_0⟩,
          ⟨S1024x1024, transpose S1024x1024 [1, 0] (m ((c : Thread nD τ).loc main_arg11)) Facts₀.transposes_S1024x1024_S1024x1024_1_0⟩,
          ⟨S1024x1024, transpose S1024x1024 [1, 0] (m ((c : Thread nD τ).loc main_arg14)) Facts₀.transposes_S1024x1024_S1024x1024_1_0⟩]
          Facts₀.concatenates_S1024x1024_S1024x1024_S1024x1024_S1024x1024_S1024x4096_d1) Facts₀.bitsLt_bf16_f32 := by
    dsimp only [V, hostOps0]; after_results; rfl
  rw [e]
  unfold Cert.ReferenceIdeal.Read.val_main_v5 Cert.ReferenceIdeal.Read.val_main_v1
  simp only [truncf, Ideal.truncf_def]
  exact transposes_joined _ _ _ _ _ _ _ _ i

/-- The bias row the call finds, at column `q`, is the reference's joined bias at `q`. -/
theorem b_join (c : Dev nD) (q : Fin 4096) :
    V m c main_v13 (ix2 (n0 := 1) (n1 := 4096) 0 q)
      = Cert.ReferenceIdeal.Read.val_main_v2 (F := Ideal) (m ((c : Thread nD τ).loc main_arg4)) (m ((c : Thread nD τ).loc main_arg7)) (m ((c : Thread nD τ).loc main_arg10)) (m ((c : Thread nD τ).loc main_arg13)) (ix1 (n := 4096) q) := by
  have e : (V m c main_v13 : S1x4096.Idx → EReal)
      = shapeCast S1x4096 (concatenate S4096 0 [⟨S1024, (m ((c : Thread nD τ).loc main_arg7))⟩, ⟨S1024, (m ((c : Thread nD τ).loc main_arg4))⟩, ⟨S1024, (m ((c : Thread nD τ).loc main_arg10))⟩, ⟨S1024, (m ((c : Thread nD τ).loc main_arg13))⟩]
          Facts₀.concatenates_S1024_S1024_S1024_S1024_S4096_d0) Facts₀.shapeCasts_S4096_S1x4096 := by
    dsimp only [V, hostOps0]; after_results; rfl
  rw [e]
  unfold Cert.ReferenceIdeal.Read.val_main_v2
  refine (shapeCast_addUnit_apply (n := 1) ![4096] _ Facts₀.shapeCasts_S4096_S1x4096 (ix2 (n0 := 1) (n1 := 4096) 0 q)).trans ?_
  exact congrArg _ (funext fun a => by match a with | ⟨0, _⟩ => rfl)

end Cert.KernelIdeal.Fused

end
-- ==== Proof.lean ====
/-
  The fused LSTM cell: a Pallas kernel over 64 row tiles against the plain jnp reference, equal over the extended reals.

  Both programs form the pre-activations  z = (x·Wx + h·Wh) + b  with the four gates' weights fused into one [1024, 4096]
  matrix per side and the four biases joined, cut z into the input, forget, candidate and output gates, and return
  c' = σ(z_f)·c + σ(z_i)·tanh(z_g)  and  h' = σ(z_o)·tanh(c'). The kernel builds the fused weights by transposing each gate
  matrix and joining the four side by side, narrows them and the tiles of x and h to bf16, and multiplies tile by tile into
  a zero accumulator; the reference stacks the gate matrices, transposes the stack, and multiplies whole arrays; it spells
  the logistic function σ as one over one plus the exponential of the negation. On the extended reals a change of float
  format is the identity, a product into a zero accumulator is the plain sum over the contracted axis, and σ is that
  quotient, so both sides are ONE function of the arguments, row by row: no law of arithmetic beyond that is used, and the
  precondition is never opened.

  The frames: the kernel's program runs its fourteen host lines and its call to the end and leaves every argument as
  launched (the same proof at the word level and on the extended reals, the two printed programs being one text); the
  reference's frame is its run with the results dropped. The idealization rewrote nothing, so `preserves` is trivial.
-/
import proofs.«143105_j29850022707330_1_alg».proof.Defs
import proofs.«143105_j29850022707330_1_alg».proof.Proof.Gen.Kernel
import proofs.«143105_j29850022707330_1_alg».proof.Proof.Gen.KernelIdeal
import proofs.«143105_j29850022707330_1_alg».proof.Proof.Gen.ReferenceIdeal
import proofs.«143105_j29850022707330_1_alg».proof.Proof.Gen.ReferenceIdeal.Run
import proofs.«143105_j29850022707330_1_alg».proof.Proof.Gen.ReferenceIdeal.Read
import proofs.«143105_j29850022707330_1_alg».proof.Proof.Gen.Pre_finite_inputs
import proofs.«143105_j29850022707330_1_alg».proof.Proof.KernelFrame
import proofs.«143105_j29850022707330_1_alg».proof.Proof.KernelIdealFrame
import proofs.«143105_j29850022707330_1_alg».proof.Proof.KernelIdealCell
import proofs.«143105_j29850022707330_1_alg».proof.Proof.RefCell
import proofs.«143105_j29850022707330_1_alg».proof.Proof.Fused
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx Cert.CellSpec

/-! ## The kernel's two result arrays as the reference's function of the arguments -/

/-- The cell-state array the kernel's run leaves is the row-wise cell of the ARGUMENTS at the reference's fused operands: the
    call finds x, h and c as launched, and the fused weights and bias it finds are the reference's, entry by entry. -/
theorem cell_join (m : (ℓ : Loc Cert.KernelIdeal.nD Cert.KernelIdeal.τ Cert.KernelIdeal.sig) → Buf (Elt Ideal) ℓ) (c : Dev Cert.KernelIdeal.nD) :
    Cert.KernelIdeal.CellValue.cellArr m c
      = cellOut (R := 8192) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (Cert.ReferenceIdeal.Cell.wxR (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg9)) (m ((c.tc : Thread Cert.KernelIdeal.nD Cert.KernelIdeal.τ).loc Cert.KernelIdeal.main_arg12))) (Cert.ReferenceIdeal.Cell.whR (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg11)) (m ((c.tc : Thread Cert.KernelIdeal.nD Cert.KernelIdeal.τ).loc Cert.KernelIdeal.main_arg14))) (Cert.ReferenceIdeal.Cell.bR (m ((c.tc : Thread Cert.KernelIdeal.nD Cert.KernelIdeal.τ).loc Cert.KernelIdeal.main_arg4)) (m ((c.tc : Thread Cert.KernelIdeal.nD Cert.KernelIdeal.τ).loc Cert.KernelIdeal.main_arg7)) (m ((c.tc : Thread Cert.KernelIdeal.nD Cert.KernelIdeal.τ).loc Cert.KernelIdeal.main_arg10)) (m ((c.tc : Thread Cert.KernelIdeal.nD Cert.KernelIdeal.τ).loc Cert.KernelIdeal.main_arg13))) :=
  funext fun i => (congrArg (Cert.KernelIdeal.CellValue.cellArr m c) (eq_ix2 i)).trans
    ((cellOut_rows id (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (Cert.KernelIdeal.Cell.V m c Cert.KernelIdeal.main_arg0) (Cert.KernelIdeal.Cell.V m c Cert.KernelIdeal.main_arg1) (Cert.KernelIdeal.Cell.V m c Cert.KernelIdeal.main_arg2)
      (fun p k => congrFun (Cert.KernelIdeal.Cell.V_of_not_written m c Cert.KernelIdeal.main_arg0 (by decide)) _)
      (fun p k => congrFun (Cert.KernelIdeal.Cell.V_of_not_written m c Cert.KernelIdeal.main_arg1 (by decide)) _)
      (fun p k => congrFun (Cert.KernelIdeal.Cell.V_of_not_written m c Cert.KernelIdeal.main_arg2 (by decide)) _)
      (Cert.ReferenceIdeal.Cell.wxR (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg9)) (m ((c.tc : Thread Cert.KernelIdeal.nD Cert.KernelIdeal.τ).loc Cert.KernelIdeal.main_arg12))) (Cert.ReferenceIdeal.Cell.whR (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg11)) (m ((c.tc : Thread Cert.KernelIdeal.nD Cert.KernelIdeal.τ).loc Cert.KernelIdeal.main_arg14)))
      (Cert.KernelIdeal.Cell.V m c Cert.KernelIdeal.main_v5) (Cert.KernelIdeal.Cell.V m c Cert.KernelIdeal.main_v11)
      (Cert.ReferenceIdeal.Cell.bR (m ((c.tc : Thread Cert.KernelIdeal.nD Cert.KernelIdeal.τ).loc Cert.KernelIdeal.main_arg4)) (m ((c.tc : Thread Cert.KernelIdeal.nD Cert.KernelIdeal.τ).loc Cert.KernelIdeal.main_arg7)) (m ((c.tc : Thread Cert.KernelIdeal.nD Cert.KernelIdeal.τ).loc Cert.KernelIdeal.main_arg10)) (m ((c.tc : Thread Cert.KernelIdeal.nD Cert.KernelIdeal.τ).loc Cert.KernelIdeal.main_arg13))) (Cert.KernelIdeal.CellValue.biasK m c)
      (Cert.KernelIdeal.Fused.wx_join m c) (Cert.KernelIdeal.Fused.wh_join m c) (Cert.KernelIdeal.Fused.b_join m c) (i 0) (i 1)).trans
     (congrArg (cellOut (R := 8192) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (Cert.ReferenceIdeal.Cell.wxR (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg9)) (m ((c.tc : Thread Cert.KernelIdeal.nD Cert.KernelIdeal.τ).loc Cert.KernelIdeal.main_arg12))) (Cert.ReferenceIdeal.Cell.whR (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg11)) (m ((c.tc : Thread Cert.KernelIdeal.nD Cert.KernelIdeal.τ).loc Cert.KernelIdeal.main_arg14))) (Cert.ReferenceIdeal.Cell.bR (m ((c.tc : Thread Cert.KernelIdeal.nD Cert.KernelIdeal.τ).loc Cert.KernelIdeal.main_arg4)) (m ((c.tc : Thread Cert.KernelIdeal.nD Cert.KernelIdeal.τ).loc Cert.KernelIdeal.main_arg7)) (m ((c.tc : Thread Cert.KernelIdeal.nD Cert.KernelIdeal.τ).loc Cert.KernelIdeal.main_arg10)) (m ((c.tc : Thread Cert.KernelIdeal.nD Cert.KernelIdeal.τ).loc Cert.KernelIdeal.main_arg13)))) (eq_ix2 i).symm))

/-- The hidden-state array likewise. -/
theorem hid_join (m : (ℓ : Loc Cert.KernelIdeal.nD Cert.KernelIdeal.τ Cert.KernelIdeal.sig) → Buf (Elt Ideal) ℓ) (c : Dev Cert.KernelIdeal.nD) :
    Cert.KernelIdeal.CellValue.hidArr m c
      = hidOut (R := 8192) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (Cert.ReferenceIdeal.Cell.wxR (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg9)) (m ((c.tc : Thread Cert.KernelIdeal.nD Cert.KernelIdeal.τ).loc Cert.KernelIdeal.main_arg12))) (Cert.ReferenceIdeal.Cell.whR (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg11)) (m ((c.tc : Thread Cert.KernelIdeal.nD Cert.KernelIdeal.τ).loc Cert.KernelIdeal.main_arg14))) (Cert.ReferenceIdeal.Cell.bR (m ((c.tc : Thread Cert.KernelIdeal.nD Cert.KernelIdeal.τ).loc Cert.KernelIdeal.main_arg4)) (m ((c.tc : Thread Cert.KernelIdeal.nD Cert.KernelIdeal.τ).loc Cert.KernelIdeal.main_arg7)) (m ((c.tc : Thread Cert.KernelIdeal.nD Cert.KernelIdeal.τ).loc Cert.KernelIdeal.main_arg10)) (m ((c.tc : Thread Cert.KernelIdeal.nD Cert.KernelIdeal.τ).loc Cert.KernelIdeal.main_arg13))) :=
  funext fun i => (congrArg (Cert.KernelIdeal.CellValue.hidArr m c) (eq_ix2 i)).trans
    ((hidOut_rows id (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (Cert.KernelIdeal.Cell.V m c Cert.KernelIdeal.main_arg0) (Cert.KernelIdeal.Cell.V m c Cert.KernelIdeal.main_arg1) (Cert.KernelIdeal.Cell.V m c Cert.KernelIdeal.main_arg2)
      (fun p k => congrFun (Cert.KernelIdeal.Cell.V_of_not_written m c Cert.KernelIdeal.main_arg0 (by decide)) _)
      (fun p k => congrFun (Cert.KernelIdeal.Cell.V_of_not_written m c Cert.KernelIdeal.main_arg1 (by decide)) _)
      (fun p k => congrFun (Cert.KernelIdeal.Cell.V_of_not_written m c Cert.KernelIdeal.main_arg2 (by decide)) _)
      (Cert.ReferenceIdeal.Cell.wxR (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg9)) (m ((c.tc : Thread Cert.KernelIdeal.nD Cert.KernelIdeal.τ).loc Cert.KernelIdeal.main_arg12))) (Cert.ReferenceIdeal.Cell.whR (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg11)) (m ((c.tc : Thread Cert.KernelIdeal.nD Cert.KernelIdeal.τ).loc Cert.KernelIdeal.main_arg14)))
      (Cert.KernelIdeal.Cell.V m c Cert.KernelIdeal.main_v5) (Cert.KernelIdeal.Cell.V m c Cert.KernelIdeal.main_v11)
      (Cert.ReferenceIdeal.Cell.bR (m ((c.tc : Thread Cert.KernelIdeal.nD Cert.KernelIdeal.τ).loc Cert.KernelIdeal.main_arg4)) (m ((c.tc : Thread Cert.KernelIdeal.nD Cert.KernelIdeal.τ).loc Cert.KernelIdeal.main_arg7)) (m ((c.tc : Thread Cert.KernelIdeal.nD Cert.KernelIdeal.τ).loc Cert.KernelIdeal.main_arg10)) (m ((c.tc : Thread Cert.KernelIdeal.nD Cert.KernelIdeal.τ).loc Cert.KernelIdeal.main_arg13))) (Cert.KernelIdeal.CellValue.biasK m c)
      (Cert.KernelIdeal.Fused.wx_join m c) (Cert.KernelIdeal.Fused.wh_join m c) (Cert.KernelIdeal.Fused.b_join m c) (i 0) (i 1)).trans
     (congrArg (hidOut (R := 8192) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (Cert.ReferenceIdeal.Cell.wxR (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg9)) (m ((c.tc : Thread Cert.KernelIdeal.nD Cert.KernelIdeal.τ).loc Cert.KernelIdeal.main_arg12))) (Cert.ReferenceIdeal.Cell.whR (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg11)) (m ((c.tc : Thread Cert.KernelIdeal.nD Cert.KernelIdeal.τ).loc Cert.KernelIdeal.main_arg14))) (Cert.ReferenceIdeal.Cell.bR (m ((c.tc : Thread Cert.KernelIdeal.nD Cert.KernelIdeal.τ).loc Cert.KernelIdeal.main_arg4)) (m ((c.tc : Thread Cert.KernelIdeal.nD Cert.KernelIdeal.τ).loc Cert.KernelIdeal.main_arg7)) (m ((c.tc : Thread Cert.KernelIdeal.nD Cert.KernelIdeal.τ).loc Cert.KernelIdeal.main_arg10)) (m ((c.tc : Thread Cert.KernelIdeal.nD Cert.KernelIdeal.τ).loc Cert.KernelIdeal.main_arg13)))) (eq_ix2 i).symm))

/-! ## The claims -/

/-- From memories agreeing on the arguments both programs run, and end with equal results: the kernel's at the row-wise cell
    of its arguments, the reference's at the same function of its own. -/
theorem algebraic : Cert.algebraic_KernelIdeal_ReferenceIdeal := by
  intro m ρ m' ρ' _ hagree
  refine ⟨fun c => Cert.KernelIdeal.CellValue.hidArr m c, fun c => Cert.KernelIdeal.CellValue.cellArr m c, Cert.KernelIdeal.CellValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10, e11, e12, e13, e14⟩ := hagree c
    rw [Cert.ReferenceIdeal.Read.val_main_v38_eq, Cert.ReferenceIdeal.Cell.hid_eq, e0, e1, e2, e3, e4, e5, e6, e7, e8, e9, e10, e11, e12, e13, e14]
    exact (hid_join m c).symm
  · obtain ⟨e0, e1, e2, e3, e4, e5, e6, e7, e8, e9, e10, e11, e12, e13, e14⟩ := hagree c
    rw [Cert.ReferenceIdeal.Read.val_main_v36_eq, Cert.ReferenceIdeal.Cell.cell_eq, e0, e1, e2, e3, e4, e5, e6, e7, e8, e9, e10, e11, e12, e13, e14]
    exact (cell_join m c).symm

theorem claim : Cert.Claim := ⟨Cert.Kernel.Gen.facts, Cert.KernelIdeal.Gen.facts, Cert.ReferenceIdeal.Gen.facts, Cert.Pre_finite_inputs.Gen.facts,
  fun m ρ _ => Cert.Kernel.Cell.frame m ρ,
  fun m ρ _ => Cert.KernelIdeal.Cell.frame m ρ,
  fun m ρ _ => (θ_run Cert.ReferenceIdeal.defs _ _).mono (fun _ h c => (h c).2.2) (Cert.ReferenceIdeal.Value.run (F := Ideal) m ρ),
  trivial,
  algebraic⟩

end Cert.Proof

end
